-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S200x512 : Shape := ⟨2, ![200, 512]⟩
abbrev S262144x8 : Shape := ⟨2, ![262144, 8]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S200x512 : S_.BroadcastsInDim S200x512 (![] : Fin 0 → Fin S200x512.rank)
  reducesTo_S200x512_S_d0_1 : S200x512.ReducesTo [0, 1] S_
  bcast_S_S262144 : S_.BroadcastsInDim S262144 (![] : Fin 0 → Fin S262144.rank)
  reducesTo_S262144_S_d0 : S262144.ReducesTo [0] S_
  bcast_S_S262144x8 : S_.BroadcastsInDim S262144x8 (![] : Fin 0 → Fin S262144x8.rank)
  reducesTo_S262144x8_S_d0_1 : S262144x8.ReducesTo [0, 1] S_

variable [Facts]

def fn_part1 {F : FTy → Type} [FloatOps F] (main_arg3 : IVec S262144x8 32) (main_v8 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v8 main_v17
  let main_c_6 : IVec S_ 32 := constantI S_ 32 0#32
  let main_v19 : IVec S262144x8 32 := broadcastInDim S262144x8 ![] bcast_S_S262144x8 main_c_6
  let main_v20 : IVec S262144x8 1 := cmpi .sge main_arg3 main_v19
  let main_c_7 : IVec S_ 32 := constantI S_ 32 200#32
  let main_v21 : IVec S262144x8 32 := broadcastInDim S262144x8 ![] bcast_S_S262144x8 main_c_7
  let main_v22 : IVec S262144x8 1 := cmpi .slt main_arg3 main_v21
  let main_v23 : IVec S262144x8 1 := andi main_v20 main_v22
  let main_c_8 : IVec S_ 1 := constantI S_ 1 1#1
  let main_v24 : IVec S_ 1 := (fun x v => Host.reduce IntOp.andi x v reducesTo_S262144x8_S_d0_1 h_S_) main_v23 main_c_8
  let main_v25 : IVec S_ 1 := andi main_v18 main_v24
  main_v25

def fn {F : FTy → Type} [FloatOps F] (main_arg0 : FVec F S262144x512 .f32) (main_arg1 : IVec S262144 32) (main_arg2 : FVec F S200x512 .f32) (main_arg3 : IVec S262144x8 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S200x512 .f32 := Host.absf main_arg2
  let main_cst_0 : FVec F S_ .f32 := constant S_ .f32 0x7F800000#32
  let main_v5 : FVec F S200x512 .f32 := broadcastInDim S200x512 ![] bcast_S_S200x512 main_cst_0
  let main_v6 : IVec S200x512 1 := cmpf .olt main_v4 main_v5
  let main_c_1 : IVec S_ 1 := constantI S_ 1 1#1
  let main_v7 : IVec S_ 1 := (fun x v => Host.reduce IntOp.andi x v reducesTo_S200x512_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 32 := constantI S_ 32 200#32
  let main_v11 : IVec S262144 32 := broadcastInDim S262144 ![] bcast_S_S262144 main_c_3
  let main_v12 : IVec S262144 1 := cmpi .slt main_arg1 main_v11
  let main_v13 : IVec S262144 1 := andi main_v10 main_v12
  let main_c_4 : IVec S_ 32 := constantI S_ 32 255#32
  let main_v14 : IVec S262144 32 := broadcastInDim S262144 ![] bcast_S_S262144 main_c_4
  let main_v15 : IVec S262144 1 := cmpi .eq main_arg1 main_v14
  let main_v16 : IVec S262144 1 := ori main_v13 main_v15
  fn_part1 (F := F) main_arg3 main_v8 main_v16
-- ==== Kernel.lean ====
abbrev S262144x512 : Shape := ⟨2, ![262144, 512]⟩
abbrev S262144 : Shape := ⟨1, ![262144]⟩
abbrev S200x512 : Shape := ⟨2, ![200, 512]⟩
abbrev S262144x8 : Shape := ⟨2, ![262144, 8]⟩
abbrev S_ : Shape := ⟨0, ![]⟩
abbrev S256x512 : Shape := ⟨2, ![256, 512]⟩
abbrev S262144x1 : Shape := ⟨2, ![262144, 1]⟩
abbrev S512x512 : Shape := ⟨2, ![512, 512]⟩
abbrev S512x1 : Shape := ⟨2, ![512, 1]⟩
abbrev S512x8 : Shape := ⟨2, ![512, 8]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1x256 : Shape := ⟨2, ![1, 256]⟩

abbrev nBuf : Space → Nat
  | .hbm => 21
  | .vmem => 11
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S200x512, .f32⟩
  | .hbm, ⟨3, _⟩ => ⟨S262144x8, .i32⟩
  | .hbm, ⟨4, _⟩ => ⟨S_, .i32⟩
  | .hbm, ⟨5, _⟩ => ⟨S_, .f32⟩
  | .hbm, ⟨6, _⟩ => ⟨S256x512, .f32⟩
  | .hbm, ⟨7, _⟩ => ⟨S262144x1, .i32⟩
  | .hbm, ⟨8, _⟩ => ⟨S262144, .f32⟩
  | .hbm, ⟨9, _⟩ => ⟨S262144, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x1, .i32⟩
  | .local _ .vmem, ⟨3, _⟩ => ⟨S512x1, .i32⟩
  | .local _ .vmem, ⟨4, _⟩ => ⟨S512x8, .i32⟩
  | .local _ .vmem, ⟨5, _⟩ => ⟨S512x8, .i32⟩
  | .local _ .vmem, ⟨6, _⟩ => ⟨S256x512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S200x512_S256x512_0560_000 : S200x512.Pads (![0, 0] : Fin 2 → Nat) ![56, 0] ![0, 0] S256x512
  h_S_ : 0 < S_.numel
  shapeCasts_S262144_S262144x1 : S262144.ShapeCasts S262144x1
  inb_S512x512_S512x512_0_0 : ∀ a, (![0, 0] : Fin 2 → Nat) a + S512x512.size a ≤ S512x512.size a
  h_S512x512 : 0 < S512x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  transposes_S256x512_p1_0_S512x256 : S256x512.Transposes [1, 0] S512x256
  reduces_S512x512_S512 : S512x512.Reduces [1] S512
  shapeCasts_S512_S512x1 : S512.ShapeCasts S512x1
  reduces_S256x512_S256 : S256x512.Reduces [1] S256
  shapeCasts_S256_S256x1 : S256.ShapeCasts S256x1
  shapeCasts_S256x1_S256 : S256x1.ShapeCasts S256
  shapeCasts_S256_S1x256 : S256.ShapeCasts S1x256
  iota_S512x256_d1_w32 : S512x256.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  natLt_1_32 : 1 < 32
  reduces_S512x256_S512 : S512x256.Reduces [1] S512
  broadcasts_S1x256_S512x256 : S1x256.Broadcasts S512x256
  inb_S512x8_S512x8_0_0 : ∀ a, (![0, 0] : Fin 2 → Nat) a + S512x8.size a ≤ S512x8.size a
  h_S512x8 : 0 < S512x8.numel
  slices_S512x8_o0_0_S512x1 : S512x8.Slices ![0, 0] S512x1
  slices_S512x8_o0_1_S512x1 : S512x8.Slices ![0, 1] S512x1
  slices_S512x8_o0_2_S512x1 : S512x8.Slices ![0, 2] S512x1
  slices_S512x8_o0_3_S512x1 : S512x8.Slices ![0, 3] S512x1
  slices_S512x8_o0_4_S512x1 : S512x8.Slices ![0, 4] S512x1
  slices_S512x8_o0_5_S512x1 : S512x8.Slices ![0, 5] S512x1
  slices_S512x8_o0_6_S512x1 : S512x8.Slices ![0, 6] S512x1
  slices_S512x8_o0_7_S512x1 : S512x8.Slices ![0, 7] S512x1
  shapeCasts_S512x1_S512 : S512x1.ShapeCasts S512
  inb_S512_S512_0 : ∀ a, (![0] : Fin 1 → Nat) a + S512.size a ≤ S512.size a
  h_S512 : 0 < S512.numel
  reducesTo_S262144_S_d0 : S262144.ReducesTo [0] S_
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S262144x512.size a
  hwx0_0 : ∀ i : grid0.Coords, EltTy.bits .f32 = 32 ∨ (Rect.block (s := S262144x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S262144x1.size a
  hwx0_1 : ∀ i : grid0.Coords, EltTy.bits .i32 = 32 ∨ (Rect.block (s := S262144x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S262144x8.size a
  hwx0_2 : ∀ i : grid0.Coords, EltTy.bits .i32 = 32 ∨ (Rect.block (s := S262144x8) S512x8.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S262144.size a
  hwx0_4 : ∀ i : grid0.Coords, EltTy.bits .f32 = 32 ∨ (Rect.block (s := S262144) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S262144.size a
  hwx0_5 : ∀ i : grid0.Coords, EltTy.bits .f32 = 32 ∨ (Rect.block (s := S262144) S512.size (cc0_transform_5 i) (hinb0_5 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x512 : Shape := ⟨2, ![262144, 512]⟩
abbrev S262144 : Shape := ⟨1, ![262144]⟩
abbrev S200x512 : Shape := ⟨2, ![200, 512]⟩
abbrev S262144x8 : Shape := ⟨2, ![262144, 8]⟩
abbrev S512x200 : Shape := ⟨2, ![512, 200]⟩
abbrev S262144x200 : Shape := ⟨2, ![262144, 200]⟩
abbrev S_ : Shape := ⟨0, ![]⟩
abbrev S200 : Shape := ⟨1, ![200]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩
abbrev S262144x8x1 : Shape := ⟨3, ![262144, 8, 1]⟩

abbrev nBuf : Space → Nat
  | .hbm => 141
  | .vmem => 0
  | .smem => 0
  | _ => 0

abbrev hbmTy0_0 (i : Nat) : BufTy := match i % 128 with
  | 0 => ⟨S262144x512, .f32⟩
  | 1 => ⟨S262144, .i32⟩
  | 2 => ⟨S200x512, .f32⟩
  | 3 => ⟨S262144x8, .i32⟩
  | 4 => ⟨S512x200, .f32⟩
  | 5 => ⟨S262144x200, .f32⟩
  | 6 => ⟨S262144x512, .f32⟩
  | 7 => ⟨S_, .f32⟩
  | 8 => ⟨S262144, .f32⟩
  | 9 => ⟨S200x512, .f32⟩
  | 10 => ⟨S_, .f32⟩
  | 11 => ⟨S200, .f32⟩
  | 12 => ⟨S262144x1, .i32⟩
  | 13 => ⟨S_, .i32⟩
  | 14 => ⟨S262144x1, .i32⟩
  | 15 => ⟨S262144x1, .i1⟩
  | 16 => ⟨S_, .i32⟩
  | 17 => ⟨S262144x1, .i32⟩
  | 18 => ⟨S262144x1, .i32⟩
  | 19 => ⟨S262144x1, .i32⟩
  | 20 => ⟨S262144x1x1, .i32⟩
  | 21 => ⟨S1, .i32⟩
  | 22 => ⟨S_, .i32⟩
  | 23 => ⟨S262144x1x1, .i32⟩
  | 24 => ⟨S262144x1x1, .i1⟩
  | 25 => ⟨S1x1x1, .i32⟩
  | 26 => ⟨S262144x1x1, .i32⟩
  | 27 => ⟨S262144x1x1, .i1⟩
  | 28 => ⟨S262144x1x1, .i1⟩
  | 29 => ⟨S_, .i1⟩
  | 30 => ⟨S262144x1, .i1⟩
  | 31 => ⟨S262144x1, .f32⟩
  | 32 => ⟨S_, .f32⟩
  | 33 => ⟨S262144x1, .f32⟩
  | 34 => ⟨S262144x1, .f32⟩
  | 35 => ⟨S262144, .f32⟩
  | 36 => ⟨S_, .f32⟩
  | 37 => ⟨S262144, .f32⟩
  | 38 => ⟨S262144, .f32⟩
  | 39 => ⟨S262144, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S262144, .f32⟩
  | 49 => ⟨S262144, .f32⟩
  | 50 => ⟨S_, .f32⟩
  | 51 => ⟨S262144, .f32⟩
  | 52 => ⟨S262144, .f32⟩
  | 53 => ⟨S_, .f32⟩
  | 54 => ⟨S262144, .f32⟩
  | 55 => ⟨S262144, .f32⟩
  | 56 => ⟨S262144, .f32⟩
  | 57 => ⟨S_, .i32⟩
  | 58 => ⟨S262144x8, .i32⟩
  | 59 => ⟨S262144x8, .i1⟩
  | 60 => ⟨S_, .i32⟩
  | 61 => ⟨S262144x8, .i32⟩
  | 62 => ⟨S262144x8, .i32⟩
  | 63 => ⟨S262144x8, .i32⟩
  | 64 => ⟨S262144x8x1, .i32⟩
  | 65 => ⟨S1, .i32⟩
  | 66 => ⟨S_, .i32⟩
  | 67 => ⟨S262144x8x1, .i32⟩
  | 68 => ⟨S262144x8x1, .i1⟩
  | 69 => ⟨S1x1x1, .i32⟩
  | 70 => ⟨S262144x8x1, .i32⟩
  | 71 => ⟨S262144x8x1, .i1⟩
  | 72 => ⟨S262144x8x1, .i1⟩
  | 73 => ⟨S_, .i1⟩
  | 74 => ⟨S262144x8, .i1⟩
  | 75 => ⟨S262144x8, .f32⟩
  | 76 => ⟨S_, .f32⟩
  | 77 => ⟨S262144x8, .f32⟩
  | 78 => ⟨S262144x8, .f32⟩
  | 79 => ⟨S262144x1, .f32⟩
  | 80 => ⟨S_, .f32⟩
  | 81 => ⟨S262144x8, .f32⟩
  | 82 => ⟨S262144x8, .f32⟩
  | 83 => ⟨S262144x8, .f32⟩
  | 84 => ⟨S262144x8, .f32⟩
  | 85 => ⟨S_, .i32⟩
  | 86 => ⟨S262144x8, .i32⟩
  | 87 => ⟨S262144x8, .i1⟩
  | 88 => ⟨S_, .i32⟩
  | 89 => ⟨S262144x8, .i32⟩
  | 90 => ⟨S262144x8, .i32⟩
  | 91 => ⟨S262144x8, .i32⟩
  | 92 => ⟨S262144x8x1, .i32⟩
  | 93 => ⟨S262144x8, .f32⟩
  | 94 => ⟨S262144x8, .f32⟩
  | 95 => ⟨S_, .f32⟩
  | 96 => ⟨S262144x8, .f32⟩
  | 97 => ⟨S262144x8, .f32⟩
  | 98 => ⟨S_, .f32⟩
  | 99 => ⟨S262144x8, .f32⟩
  | 100 => ⟨S262144x8, .f32⟩
  | 101 => ⟨S262144x8, .f32⟩
  | 102 => ⟨S_, .f32⟩
  | 103 => ⟨S262144, .f32⟩
  | 104 => ⟨S_, .f32⟩
  | 105 => ⟨S262144, .f32⟩
  | 106 => ⟨S262144, .f32⟩
  | 107 => ⟨S_, .i32⟩
  | 108 => ⟨S262144, .i32⟩
  | 109 => ⟨S262144, .i1⟩
  | 110 => ⟨S_, .f32⟩
  | 111 => ⟨S_, .f32⟩
  | 112 => ⟨S262144, .f32⟩
  | 113 => ⟨S262144, .f32⟩
  | 114 => ⟨S_, .f32⟩
  | 115 => ⟨S_, .f32⟩
  | 116 => ⟨S262144, .f32⟩
  | 117 => ⟨S262144, .f32⟩
  | 118 => ⟨S_, .f32⟩
  | 119 => ⟨S262144, .f32⟩
  | 120 => ⟨S262144, .f32⟩
  | 121 => ⟨S_, .f32⟩
  | 122 => ⟨S262144, .f32⟩
  | 123 => ⟨S262144, .f32⟩
  | 124 => ⟨S_, .f32⟩
  | 125 => ⟨S262144, .f32⟩
  | 126 => ⟨S262144, .f32⟩
  | 127 => ⟨S_, .f32⟩
  | _ => ⟨S262144x512, .f32⟩

abbrev hbmTy0_1 (i : Nat) : BufTy := match i % 128 with
  | 0 => ⟨S262144, .f32⟩
  | 1 => ⟨S262144, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S262144x512, .f32⟩

abbrev hbmTy (i : Nat) : BufTy := match i / 128 with
  | 0 => hbmTy0_0 i
  | 1 => hbmTy0_1 i
  | _ => ⟨S262144x512, .f32⟩

abbrev bufTy : (tb : Table) → Fin (tcTables nBuf tb) → BufTy
  | .hbm, ⟨i, _⟩ => hbmTy i
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_cst_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v25 : Ref sig .tc := ⟨.hbm, 78, rfl⟩
abbrev main_v26 : Ref sig .tc := ⟨.hbm, 79, rfl⟩
abbrev main_cst_5 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_c_6 : Ref sig .tc := ⟨.hbm, 85, rfl⟩
abbrev main_v31 : Ref sig .tc := ⟨.hbm, 86, rfl⟩
abbrev main_v32 : Ref sig .tc := ⟨.hbm, 87, rfl⟩
abbrev main_c_7 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_cst_8 : Ref sig .tc := ⟨.hbm, 95, rfl⟩
abbrev main_v39 : Ref sig .tc := ⟨.hbm, 96, rfl⟩
abbrev main_v40 : Ref sig .tc := ⟨.hbm, 97, rfl⟩
abbrev main_cst_9 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_10 : Ref sig .tc := ⟨.hbm, 102, rfl⟩
abbrev main_v44 : Ref sig .tc := ⟨.hbm, 103, rfl⟩
abbrev main_cst_11 : Ref sig .tc := ⟨.hbm, 104, rfl⟩
abbrev main_v45 : Ref sig .tc := ⟨.hbm, 105, rfl⟩
abbrev main_v46 : Ref sig .tc := ⟨.hbm, 106, rfl⟩
abbrev main_c_12 : Ref sig .tc := ⟨.hbm, 107, rfl⟩
abbrev main_v47 : Ref sig .tc := ⟨.hbm, 108, rfl⟩
abbrev main_v48 : Ref sig .tc := ⟨.hbm, 109, rfl⟩
abbrev main_cst_13 : Ref sig .tc := ⟨.hbm, 110, rfl⟩
abbrev main_call2_v0 : Ref sig .tc := ⟨.hbm, 111, rfl⟩
abbrev main_call2_v1 : Ref sig .tc := ⟨.hbm, 112, rfl⟩
abbrev main_v49 : Ref sig .tc := ⟨.hbm, 113, rfl⟩
abbrev main_cst_14 : Ref sig .tc := ⟨.hbm, 114, rfl⟩
abbrev main_call3_v0 : Ref sig .tc := ⟨.hbm, 115, rfl⟩
abbrev main_call3_v1 : Ref sig .tc := ⟨.hbm, 116, rfl⟩
abbrev main_v50 : Ref sig .tc := ⟨.hbm, 117, rfl⟩
abbrev main_cst_15 : Ref sig .tc := ⟨.hbm, 118, rfl⟩
abbrev main_v51 : Ref sig .tc := ⟨.hbm, 119, rfl⟩
abbrev main_v52 : Ref sig .tc := ⟨.hbm, 120, rfl⟩
abbrev main_call4_cst : Ref sig .tc := ⟨.hbm, 121, rfl⟩
abbrev main_call4_v0 : Ref sig .tc := ⟨.hbm, 122, rfl⟩
abbrev main_v53 : Ref sig .tc := ⟨.hbm, 123, rfl⟩
abbrev main_cst_16 : Ref sig .tc := ⟨.hbm, 124, rfl⟩
abbrev main_v54 : Ref sig .tc := ⟨.hbm, 125, rfl⟩
abbrev main_v55 : Ref sig .tc := ⟨.hbm, 126, rfl⟩
abbrev main_call5_cst : Ref sig .tc := ⟨.hbm, 127, rfl⟩
abbrev main_call5_v0 : Ref sig .tc := ⟨.hbm, 128, rfl⟩
abbrev main_v56 : Ref sig .tc := ⟨.hbm, 129, rfl⟩
abbrev main_cst_17 : Ref sig .tc := ⟨.hbm, 130, rfl⟩
abbrev main_v57 : Ref sig .tc := ⟨.hbm, 131, rfl⟩
abbrev main_cst_18 : Ref sig .tc := ⟨.hbm, 132, rfl⟩
abbrev main_v58 : Ref sig .tc := ⟨.hbm, 133, rfl⟩
abbrev main_cst_19 : Ref sig .tc := ⟨.hbm, 134, rfl⟩
abbrev main_v59 : Ref sig .tc := ⟨.hbm, 135, rfl⟩
abbrev main_cst_20 : Ref sig .tc := ⟨.hbm, 136, rfl⟩
abbrev main_v60 : Ref sig .tc := ⟨.hbm, 137, rfl⟩
abbrev main_cst_21 : Ref sig .tc := ⟨.hbm, 138, rfl⟩
abbrev main_v61 : Ref sig .tc := ⟨.hbm, 139, rfl⟩
abbrev main_v62 : Ref sig .tc := ⟨.hbm, 140, rfl⟩

abbrev nD : Nat := 1
abbrev τ : Topo := Topo.v7x

variable {F : FTy → Type} [FloatOps F]

class Facts₀ : Prop where
  transposes_S200x512_S512x200_1_0 : S200x512.Transposes [1, 0] S512x200
  reducesTo_S262144x512_S262144_d1 : S262144x512.ReducesTo [1] S262144
  h_S_ : 0 < S_.numel
  reducesTo_S200x512_S200_d1 : S200x512.ReducesTo [1] S200
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  bcast_S_S262144 : S_.BroadcastsInDim S262144 (![] : Fin 0 → Fin S262144.rank)
  bcast_S_S262144x8 : S_.BroadcastsInDim S262144x8 (![] : Fin 0 → Fin S262144x8.rank)
  shapeCasts_S262144x8_S262144x8x1 : S262144x8.ShapeCasts S262144x8x1
  bcast_S_S262144x8x1 : S_.BroadcastsInDim S262144x8x1 (![] : Fin 0 → Fin S262144x8x1.rank)
  bcast_S1x1x1_S262144x8x1_0_1_2 : S1x1x1.BroadcastsInDim S262144x8x1 (![0, 1, 2] : Fin 3 → Fin S262144x8x1.rank)
  reducesTo_S262144x8x1_S262144x8_d2 : S262144x8x1.ReducesTo [2] S262144x8
  bcast_S262144x1_S262144x8_0_1 : S262144x1.BroadcastsInDim S262144x8 (![0, 1] : Fin 2 → Fin S262144x8.rank)
  bcast_S262144x8_S262144x8x1_0_1 : S262144x8.BroadcastsInDim S262144x8x1 (![0, 1] : Fin 2 → Fin S262144x8x1.rank)
  reducesTo_S262144x8_S262144_d1 : S262144x8.ReducesTo [1] S262144
  reducesTo_S262144_S_d0 : S262144.ReducesTo [0] S_
  dot_S262144x512_S512x200_S262144x200_1_0_0_1_n_n_wf : DotDims.WF S262144x512 S512x200 S262144x200 [1] [0] [0] [1] [] []
  gather_S262144x200_S262144x1x1_S262144x1_n_1_0_0_1_2_11_wf : GatherDims.WF S262144x200 S262144x1x1 S262144x1 [] [1] [0] [1] [0] 2 ![1, 1]
  gather_S200_S262144x1_S262144_n_0_n_n_0_1_1_wf : GatherDims.WF S200 S262144x1 S262144 [] [0] [] [0] [] 1 ![1]
  gather_S262144x200_S262144x8x1_S262144x8_n_1_0_0_1_2_11_wf : GatherDims.WF S262144x200 S262144x8x1 S262144x8 [] [1] [0] [1] [0] 2 ![1, 1]
  gather_S200_S262144x8x1_S262144x8_n_0_n_n_0_2_1_wf : GatherDims.WF S200 S262144x8x1 S262144x8 [] [0] [] [0] [] 2 ![1]

variable [Facts₀]

def dot_S262144x512_S512x200_S262144x200_1_0_0_1_n_n : DotDims S262144x512 S512x200 S262144x200 where
  lhsContracting := [1]
  rhsContracting := [0]
  lhsNonContracting := [0]
  rhsNonContracting := [1]
  lhsBatch := []
  rhsBatch := []
  wf := dot_S262144x512_S512x200_S262144x200_1_0_0_1_n_n_wf
def gather_S262144x200_S262144x1x1_S262144x1_n_1_0_0_1_2_11 : GatherDims S262144x200 S262144x1x1 S262144x1 where
  offsetDims := []
  collapsedSliceDims := [1]
  operandBatchingDims := [0]
  startIndicesBatchingDims := [0]
  startIndexMap := [1]
  indexVectorDim := 2
  sliceSizes := ![1, 1]
  wf := gather_S262144x200_S262144x1x1_S262144x1_n_1_0_0_1_2_11_wf
def gather_S200_S262144x1_S262144_n_0_n_n_0_1_1 : GatherDims S200 S262144x1 S262144 where
  offsetDims := []
  collapsedSliceDims := [0]
  operandBatchingDims := []
  startIndicesBatchingDims := []
  startIndexMap := [0]
  indexVectorDim := 1
  sliceSizes := ![1]
  wf := gather_S200_S262144x1_S262144_n_0_n_n_0_1_1_wf
def gather_S262144x200_S262144x8x1_S262144x8_n_1_0_0_1_2_11 : GatherDims S262144x200 S262144x8x1 S262144x8 where
  offsetDims := []
  collapsedSliceDims := [1]
  operandBatchingDims := [0]
  startIndicesBatchingDims := [0]
  startIndexMap := [1]
  indexVectorDim := 2
  sliceSizes := ![1, 1]
  wf := gather_S262144x200_S262144x8x1_S262144x8_n_1_0_0_1_2_11_wf
def gather_S200_S262144x8x1_S262144x8_n_0_n_n_0_2_1 : GatherDims S200 S262144x8x1 S262144x8 where
  offsetDims := []
  collapsedSliceDims := [0]
  operandBatchingDims := []
  startIndicesBatchingDims := []
  startIndexMap := [0]
  indexVectorDim := 2
  sliceSizes := ![1]
  wf := gather_S200_S262144x8x1_S262144x8_n_0_n_n_0_2_1_wf

class Facts : Prop extends Facts₀ where

variable [Facts]
-- ==== Proof.Spec.lean ====
/-
  The contrastive distance loss both programs compute, as one function of the four argument arrays.

  For a feature row x_r (512 numbers) and an anchor row a_l of a table of 200 anchors, the squared distance is
  expanded as |x_r|² − 2·(x_r · a_l) + |a_l|², clipped below at 0, shifted by a small ε and rooted. The positive
  term of row r takes the anchor its label names; the negative term is the mean of the eight distances to the
  anchors its eight negative indices name. A row whose label is the ignore value 255 contributes distance 0 to
  both. The positive loss is max(d − 0, 0), the negative loss max(0.85 − d, 0); the scalar loss is the sum of the
  two means over the 262144 rows.

  A position word names an anchor by its signed value clipped into the table; on the domain of the claim (labels
  in [0, 200) or 255, negative indices in [0, 200)) the clipping does nothing.
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx
open scoped BigOperators

abbrev SX : Shape := ⟨2, ![262144, 512]⟩
abbrev SA : Shape := ⟨2, ![200, 512]⟩
abbrev SL : Shape := ⟨1, ![262144]⟩
abbrev SN : Shape := ⟨2, ![262144, 8]⟩
abbrev S0 : Shape := ⟨0, ![]⟩

/-- The float words the programs spell, as the extended reals they denote. -/
abbrev z0 : EReal := Ideal.ofBits .f32 0x00000000#32
abbrev two : EReal := Ideal.ofBits .f32 0x40000000#32
abbrev eps : EReal := Ideal.ofBits .f32 0x33D6BF95#32
abbrev margin : EReal := Ideal.ofBits .f32 0x3F59999A#32
abbrev eighth : EReal := Ideal.ofBits .f32 0x3E000000#32
abbrev eight : EReal := Ideal.ofBits .f32 0x41000000#32

/-- The anchor a 32-bit position word names: its signed value clipped into the 200 rows of the table. -/
def anchorOf (w : BitVec 32) : Fin 200 := ⟨min w.toInt.toNat 199, by omega⟩

/-- A word whose unsigned value is below 200 names the anchor at that value. -/
theorem anchorOf_of_lt {w : BitVec 32} (h : w.toNat < 200) : anchorOf w = ⟨w.toNat, h⟩ := by
  have h31 : w.toNat < 2 ^ 31 := by omega
  have hi : w.toInt = (w.toNat : Int) := by
    rw [BitVec.toInt_eq_toNat_cond]; simp; omega
  apply Fin.ext
  show min w.toInt.toNat 199 = w.toNat
  rw [hi, Int.toNat_natCast]; omega

/-- |x_r|²: the squared norm of feature row r. -/
def sqX (X : FVec Ideal SX .f32) (r : Fin 262144) : EReal := ∑ k : Fin 512, X (ix2 r k) * X (ix2 r k)

/-- |a_l|²: the squared norm of anchor l. -/
def sqA (A : FVec Ideal SA .f32) (l : Fin 200) : EReal := ∑ k : Fin 512, A (ix2 l k) * A (ix2 l k)

/-- x_r · a_l. -/
def dotXA (X : FVec Ideal SX .f32) (A : FVec Ideal SA .f32) (r : Fin 262144) (l : Fin 200) : EReal :=
  ∑ k : Fin 512, X (ix2 r k) * A (ix2 l k)

/-- The distance of feature row r to anchor l: √(max(|x|² − 2 x·a + |a|², 0) + ε). -/
def dist (X : FVec Ideal SX .f32) (A : FVec Ideal SA .f32) (r : Fin 262144) (l : Fin 200) : EReal :=
  Ideal.sqrt (max ((sqX X r - two * dotXA X A r l) + sqA A l) z0 + eps)

/-- The positive loss of row r. -/
def posLoss (X : FVec Ideal SX .f32) (Lb : IVec SL 32) (A : FVec Ideal SA .f32) : FVec Ideal SL .f32 := fun i =>
  max ((if Lb i = 255#32 then z0 else dist X A (i 0) (anchorOf (Lb i))) - z0) z0

/-- The sum of row r's eight negative distances. -/
def negSum (X : FVec Ideal SX .f32) (A : FVec Ideal SA .f32) (Ng : IVec SN 32) (r : Fin 262144) : EReal :=
  ∑ k : Fin 8, dist X A r (anchorOf (Ng (ix2 r k)))

/-- The negative loss of row r. -/
def negLoss (X : FVec Ideal SX .f32) (Lb : IVec SL 32) (A : FVec Ideal SA .f32) (Ng : IVec SN 32) :
    FVec Ideal SL .f32 := fun i =>
  max (margin - (if Lb i = 255#32 then z0 else negSum X A Ng (i 0) * eighth)) z0

/-- The scalar loss from the two per-row losses: mean of the first plus the mean of the second times 1.0, each mean
    the host's sum from 0.0 divided by 262144.0. Both programs end in exactly these operations. -/
def total (h1 : SL.ReducesTo [0] S0) (h2 : 0 < S0.numel) (P Q : FVec Ideal SL .f32) : FVec Ideal S0 .f32 :=
  addf (Host.divf (Host.reduceAdd (F := Ideal) P (constant S0 .f32 0x00000000#32) h1 h2) (constant (F := Ideal) S0 .f32 0x48800000#32))
    (mulf (Host.divf (Host.reduceAdd (F := Ideal) Q (constant S0 .f32 0x00000000#32) h1 h2) (constant (F := Ideal) S0 .f32 0x48800000#32))
      (constant (F := Ideal) S0 .f32 0x3F800000#32))

/-- The label domain of the claim: a label is the ignore value or names one of the 200 anchors. -/
def LabelsOk (Lb : IVec SL 32) : Prop := ∀ i, Lb i = 255#32 ∨ (Lb i).toNat < 200

/-- The negative indices' domain: each names one of the 200 anchors. -/
def NegsOk (Ng : IVec SN 32) : Prop := ∀ i, (Ng i).toNat < 200

end Cert.Contrast

end
-- ==== Proof.KBlocks.lean ====
/-
  The blocks the kernel's grid points read, as entries of the arrays the region finds.

  The grid has 512 points; point t reads rows 512·t … 512·t + 511 of the features, of the label column and of the
  negative-index array, and the whole padded anchor table; it writes entries 512·t … 512·t + 511 of each result.
  The label column is the label vector reshaped; the padded table is the anchor table with 56 zero rows below it.
-/
import proofs.«418721_j84713934946579_2_alg».proof.Proof.Gen.KernelIdeal.Frame
import proofs.«418721_j84713934946579_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

variable {F : FTy → Type} [FloatOps F]
variable (m : (ℓ : Loc nD τ sig) → Buf (Elt F) ℓ)

/-- The printed index maps over the grid: every row-blocked window is at block t, the table at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = t.val ∧ win0_5.index t (0 : Fin 1) = t.val :=
  (by decide +kernel : ∀ t : Fin grid0.N, _)

/-- Row p of point t's feature block is row 512·t + p of the features. -/
theorem xblk_apply (c : Dev nD) (t : Fin cfg0.N) (p k : Fin 512) (r : Fin 262144) (hr : r.val = 512 * t.val + p.val) :
    (iblk m c 0 t : Vec F S512x512 .f32) (ix2 p k) = (V m c main_arg0 : S262144x512.Idx → Elt F .f32) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 512 + 1 * p.val = r.val; rw [e0, hr]; omega
  | ⟨1, _⟩ => show win0_0.index t 1 * 512 + 1 * k.val = k.val; rw [e1]; omega

/-- Row p of point t's label block is entry 512·t + p of the label column. -/
theorem lblk_apply (c : Dev nD) (t : Fin cfg0.N) (p : Fin 512) (r : Fin 262144) (hr : r.val = 512 * t.val + p.val) :
    (iblk m c 1 t : Vec F S512x1 .i32) (ix2 p (0 : Fin 1)) = (V m c main_v1 : S262144x1.Idx → Elt F .i32) (ix2 r (0 : Fin 1)) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t 0 * 512 + 1 * p.val = r.val; rw [e0, hr]; omega
  | ⟨1, _⟩ => show win0_1.index t 1 * 1 + 1 * 0 = 0; rw [e1]

/-- Row p of point t's negative-index block is row 512·t + p of the negative indices. -/
theorem nblk_apply (c : Dev nD) (t : Fin cfg0.N) (p : Fin 512) (k : Fin 8) (r : Fin 262144) (hr : r.val = 512 * t.val + p.val) :
    (iblk m c 2 t : Vec F S512x8 .i32) (ix2 p k) = (V m c main_arg3 : S262144x8.Idx → Elt F .i32) (ix2 r k) := by
  obtain ⟨-, -, -, -, e0, e1, -⟩ := idx_facts t
  unfold iblk
  rw [View.read_apply]
  show V m c main_arg3 _ = V m c main_arg3 _
  congr 1
  funext a
  apply Fin.ext
  match a with
  | ⟨0, _⟩ => show win0_2.index t 0 * 512 + 1 * p.val = r.val; rw [e0, hr]; omega
  | ⟨1, _⟩ => show win0_2.index t 1 * 8 + 1 * k.val = k.val; rw [e1]; omega

/-- Every point's anchor block is the whole padded table. -/
theorem ablk_apply (c : Dev nD) (t : Fin cfg0.N) (l : Fin 256) (k : Fin 512) :
    (iblk m c 3 t : Vec F S256x512 .f32) (ix2 l k) = (V m c main_v0 : S256x512.Idx → Elt F .f32) (ix2 l k) := by
  obtain ⟨-, -, -, -, -, -, e0, e1, -⟩ := idx_facts t
  unfold iblk
  rw [View.read_apply]
  show V m c main_v0 _ = V m c main_v0 _
  congr 1
  funext a
  apply Fin.ext
  match a with
  | ⟨0, _⟩ => show win0_3.index t 0 * 256 + 1 * l.val = l.val; rw [e0]; omega
  | ⟨1, _⟩ => show win0_3.index t 1 * 512 + 1 * k.val = k.val; rw [e1]; omega

/-- The label column the region finds: the label vector reshaped to one column. -/
theorem V_labels (c : Dev nD) : (V m c main_v1 : S262144x1.Idx → Elt F .i32)
    = shapeCast S262144x1 (m ((c : Thread nD τ).loc main_arg1)) shapeCasts_S262144_S262144x1 := by
  dsimp only [V, V0]
  simp only [hostOps0, hostOps0_1, hostOps0_2, List.flatten_cons, List.flatten_nil, List.append_nil, List.cons_append, List.nil_append]
  after_results
  rfl

/-- The padded table the region finds: the anchor table with 56 rows of the converted integer 0 below it. -/
theorem V_anchors (c : Dev nD) : (V m c main_v0 : S256x512.Idx → Elt F .f32)
    = pad S256x512 ![0, 0] ![56, 0] ![0, 0] (m ((c : Thread nD τ).loc main_arg2)) (sitofp (F := F) .f32 (constantI S_ 32 0#32))
        pads_S200x512_S256x512_0560_000 h_S_ := by
  dsimp only [V, V0]
  simp only [hostOps0, hostOps0_1, hostOps0_2, List.flatten_cons, List.flatten_nil, List.append_nil, List.cons_append, List.nil_append]
  after_results
  rfl

end Cert.KernelIdeal.Blocks

end
-- ==== Proof.KArrays.lean ====
/-
  The blocks of the kernel's grid points as entries of the four ARGUMENT arrays.

  The features and the negative indices reach the region as they are; the label column is the label vector
  reshaped, so its entry (r, 0) is label r; the padded table's first 200 rows are the anchor table's.
-/
import proofs.«418721_j84713934946579_2_alg».proof.Proof.KBlocks
import Idealize.ShloMosaic.Lib.KernelVsHost

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Entry (p, k) of point t's feature block is entry (512·t + p, k) of the features. -/
theorem xblk_arg (c : Dev nD) (t : Fin cfg0.N) (p k : Fin 512) (r : Fin 262144) (hr : r.val = 512 * t.val + p.val) :
    (iblk m c 0 t : Vec F S512x512 .f32) (ix2 p k)
      = (m ((c : Thread nD τ).loc main_arg0) : S262144x512.Idx → Elt F .f32) (ix2 r k) :=
  (xblk_apply m c t p k r hr).trans (congrFun (V_main_arg0 m c) _)

/-- Entry (p, k) of point t's negative-index block is entry (512·t + p, k) of the negative indices. -/
theorem nblk_arg (c : Dev nD) (t : Fin cfg0.N) (p : Fin 512) (k : Fin 8) (r : Fin 262144) (hr : r.val = 512 * t.val + p.val) :
    (iblk m c 2 t : Vec F S512x8 .i32) (ix2 p k)
      = (m ((c : Thread nD τ).loc main_arg3) : S262144x8.Idx → Elt F .i32) (ix2 r k) :=
  (nblk_apply m c t p k r hr).trans (congrFun (V_main_arg3 m c) _)

/-- Entry (p, 0) of point t's label block is label 512·t + p. -/
theorem lblk_arg (c : Dev nD) (t : Fin cfg0.N) (p : Fin 512) (r : Fin 262144) (hr : r.val = 512 * t.val + p.val) :
    (iblk m c 1 t : Vec F S512x1 .i32) (ix2 p (0 : Fin 1))
      = (m ((c : Thread nD τ).loc main_arg1) : S262144.Idx → Elt F .i32) (ix1 r) := by
  rw [lblk_apply m c t p r hr, V_labels]
  refine shapeCast_apply _ _ _ _ ?_
  show (S262144.rowMajor (ix1 r)).val = (S262144x1.rowMajor (ix2 r (0 : Fin 1))).val
  rw [Shape.rowMajor_val_two, Shape.rowMajor_val_one]
  show r.val = r.val * 1 + 0
  omega

/-- Entry (l, k) of every point's anchor block, for l below 200, is entry (l, k) of the anchor table. -/
theorem ablk_arg (c : Dev nD) (t : Fin cfg0.N) (l : Fin 256) (k : Fin 512) (hl : l.val < 200) :
    (iblk m c 3 t : Vec F S256x512 .f32) (ix2 l k)
      = (m ((c : Thread nD τ).loc main_arg2) : S200x512.Idx → Elt F .f32) (ix2 (⟨l.val, hl⟩ : Fin 200) k) := by
  rw [ablk_apply m c t l k, V_anchors]
  refine pad_apply_of_inside _ _ _ _ _ _ _ (ix2 l k) (ix2 (⟨l.val, hl⟩ : Fin 200) k) fun a => ?_
  match a with
  | ⟨0, _⟩ => show l.val = 0 + l.val * (0 + 1); omega
  | ⟨1, _⟩ => show k.val = 0 + k.val * (0 + 1); omega

end Cert.KernelIdeal.Blocks

end
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.KBody.lean ====
/-
  The kernel body's value, row by row.

  The body takes a block of 512 feature rows, their labels, their eight negative indices each, and the anchor
  table padded to 256 rows. For a row p and an index word w below 256 it selects column w of a 512 × 256 matrix by
  multiplying with the one-hot row (lane j carries 1 when j = w, else 0) and summing over the lanes; it does so for
  the matrix of dot products x_p · a_l and for the row of squared anchor norms |a_l|², and forms
  √(max(|x_p|² − 2 x_p·a_w + |a_w|², 0) + ε). The positive output takes w from the label, the negative output
  averages the eight distances at the negative indices; a row labelled 255 contributes distance 0 to both.

  The file names the repeated distance column once, shows that the body's payloads are built from it, evaluates
  it at a row, and reads the two outputs at a row.
-/
import proofs.«418721_j84713934946579_2_alg».proof.Proof.Gen.KernelIdeal.Frame
import proofs.«418721_j84713934946579_2_alg».proof.Proof.Spec
import proofs.«418721_j84713934946579_2_alg».proof.Proof.LibRowsCols
import proofs.«418721_j84713934946579_2_alg».proof.Proof.LibDot
import Idealize.ShloMosaic.PureOps.Ideal
import Idealize.ShloMosaic.PureOps.Ideal.Laws
import Idealize.ShloMosaic.Lib.ValueIdx
import Idealize.ShloMosaic.Lib.Pipeline.Value

noncomputable section

namespace Cert.KBody

open Cert.KernelIdeal Cert.KernelIdeal.Gen Cert.Contrast
open Idealize.ShloMosaic Idealize.ShloMosaic.ValueIdx Idealize.ShloMosaic.RowsCols
open scoped BigOperators

/-! ## The one-hot weight -/

/-- The weight of a lane whose number is the word `a` against the index word `w`: the comparison's bit, widened
    to a word and read as a signed number, is 1 when the two words agree and 0 when they differ. -/
theorem onehot_val (a w : BitVec 32) :
    FloatOps.sitofp (F := Ideal) .f32 ((IntOp.cmpi .eq a w).setWidth 32) = if a = w then (1 : EReal) else 0 := by
  show (((((IntOp.cmpi .eq a w).setWidth 32).toInt : ℤ) : ℝ) : EReal) = _
  by_cases h : a = w
  · rw [if_pos h, IntOp.cmpi_eq.2 h]
    have : ((1#1 : BitVec 1).setWidth 32).toInt = 1 := by decide
    rw [this]; simp
  · rw [if_neg h, eq_zero_of_ne_one (fun hc => h (IntOp.cmpi_eq.1 hc))]
    have : ((0#1 : BitVec 1).setWidth 32).toInt = 0 := by decide
    rw [this]; simp

/-- A sum over 256 lanes against the one-hot weights of a word below 256 is the term of that word's lane. -/
theorem onehot_sum (g : Fin 256 → EReal) (w : BitVec 32) (hw : w.toNat < 256) :
    ∑ j : Fin 256, g j * (if BitVec.ofNat 32 j.val = w then (1 : EReal) else 0) = g ⟨w.toNat, hw⟩ := by
  rw [Finset.sum_eq_single (⟨w.toNat, hw⟩ : Fin 256)]
  · have hself : BitVec.ofNat 32 w.toNat = w :=
      BitVec.eq_of_toNat_eq (by rw [BitVec.toNat_ofNat]; exact Nat.mod_eq_of_lt w.isLt)
    rw [if_pos hself, mul_one]
  · intro j _ hj
    have hne : ¬ BitVec.ofNat 32 j.val = w := by
      intro e
      apply hj
      apply Fin.ext
      have := congrArg BitVec.toNat e
      rw [BitVec.toNat_ofNat] at this
      have hj2 := j.isLt
      show j.val = w.toNat
      omega
    rw [if_neg hne, mul_zero]
  · intro h; exact absurd (Finset.mem_univ _) h

/-! ## The distance column, named once -/

section Generic
variable {F : FTy → Type} [FloatOps F]

/-- The one-hot matrix of an index column: lane j of row p carries 1 when j is the index of row p. -/
def oneHot (v15 : IVec S512x256 32) (idx : IVec S512x1 32) : FVec F S512x256 .f32 :=
  sitofp .f32 (extui 32 (cmpi .eq v15 (broadcastTo S512x256 idx broadcasts_S512x1_S512x256)) natLt_1_32)

/-- The lane sums of a matrix weighted by a one-hot matrix. -/
def pickSum (m oh : FVec F S512x256 .f32) : FVec F S512 .f32 :=
  multiReduction .add [1] S512 (mulf m oh) 0x00000000#32 reduces_S512x256_S512 (.inl rfl) rfl

/-- The same as a column. -/
def pickCol (m oh : FVec F S512x256 .f32) : FVec F S512x1 .f32 :=
  shapeCast S512x1 (pickSum m oh) shapeCasts_S512_S512x1

/-- The expanded square (|x|² − 2 x·a) + |a|² from its three columns. -/
def sqOf (v9 dot a2 : FVec F S512x1 .f32) : FVec F S512x1 .f32 :=
  addf (subf v9 (mulf (broadcast S512x1 (Scalar.ofBits .f32 0x40000000#32)) dot)) a2

/-- The root of the clipped, shifted square. -/
def rootOf (c : F .f32) (sq : FVec F S512x1 .f32) : FVec F S512x1 .f32 :=
  sqrt (addf (maximumf sq (broadcast S512x1 c)) (broadcast S512x1 (Scalar.ofBits .f32 0x33D6BF95#32)))

/-- The distance column of an index column: from the dot products `v6`, the squared row norms `v9`, the squared
    anchor norms `v14` and the lane numbers `v15`. -/
def distCol (v6 : FVec F S512x256 .f32) (v9 : FVec F S512x1 .f32) (v14 : FVec F S1x256 .f32) (v15 : IVec S512x256 32)
    (idx : IVec S512x1 32) : FVec F S512x1 .f32 :=
  rootOf (Scalar.ofBits .f32 0x00000000#32)
    (sqOf v9 (pickCol v6 (oneHot v15 idx))
      (pickCol (broadcastTo S512x256 v14 broadcasts_S1x256_S512x256) (oneHot v15 idx)))

/-- Column k of the negative-index block. -/
def negCol (v38 : Vec F S512x8 .i32) (k : Fin 8) : IVec S512x1 32 := fun i => v38 (ix2 (i 0) k)

/-- The positive distance column is the distance column of the label column. -/
theorem pay7_eq (v0 : Vec F S512x512 .f32) (v1 : Vec F S256x512 .f32) (v16 : Vec F S512x1 .i32) :
    k0_pay7 v0 v1 v16
      = distCol (k0_pay3 v0 v1) (k0_pay4 v0) (k0_pay5 v1) (iota .tc S512x256 32 [1] iota_S512x256_d1_w32) (k0_pay6 v16) := rfl

end Generic

section Generic2
variable {F : FTy → Type} [FloatOps F]

/-- The eight negative distance columns added up from the zero column, in the body's order. -/
def negSumCol (v6 : FVec F S512x256 .f32) (v9 : FVec F S512x1 .f32) (v14 : FVec F S1x256 .f32) (v15 : IVec S512x256 32)
    (v38 : Vec F S512x8 .i32) : FVec F S512x1 .f32 :=
  addf (addf (addf (addf (addf (addf (addf (addf (k0_pay8 (F := F))
    (distCol v6 v9 v14 v15 (extractStridedSlice S512x1 ![0, 0] v38 slices_S512x8_o0_0_S512x1)))
    (distCol v6 v9 v14 v15 (extractStridedSlice S512x1 ![0, 1] v38 slices_S512x8_o0_1_S512x1)))
    (distCol v6 v9 v14 v15 (extractStridedSlice S512x1 ![0, 2] v38 slices_S512x8_o0_2_S512x1)))
    (distCol v6 v9 v14 v15 (extractStridedSlice S512x1 ![0, 3] v38 slices_S512x8_o0_3_S512x1)))
    (distCol v6 v9 v14 v15 (extractStridedSlice S512x1 ![0, 4] v38 slices_S512x8_o0_4_S512x1)))
    (distCol v6 v9 v14 v15 (extractStridedSlice S512x1 ![0, 5] v38 slices_S512x8_o0_5_S512x1)))
    (distCol v6 v9 v14 v15 (extractStridedSlice S512x1 ![0, 6] v38 slices_S512x8_o0_6_S512x1)))
    (distCol v6 v9 v14 v15 (extractStridedSlice S512x1 ![0, 7] v38 slices_S512x8_o0_7_S512x1))

/-- The negative output before its last clip: the margin minus the mean of the eight distances, the mean replaced
    by zero on the rows labelled 255. -/
theorem pay21_eq (v6 : FVec F S512x256 .f32) (v9 : FVec F S512x1 .f32) (v14 : FVec F S1x256 .f32) (v15 : IVec S512x256 32)
    (v17 : IVec S512x1 32) (v38 : Vec F S512x8 .i32) :
    k0_pay21 v6 v9 v14 v15 v17 v38
        (k0_pay17 v6 v9 v14 v15 v38
          (k0_pay13 v6 v9 v14 v15 v38 (k0_pay10 v6 v9 v14 v15 v38 (k0_pay8 (F := F)) (k0_pay9 v38)) (k0_pay11 v15 v38)
            (k0_pay12 v6 v15 v38))
          (k0_pay15 v6 v15 v38) (k0_pay16 v14 v15 v38))
        (k0_pay18 v6 v9 v14 v15 v38) (Scalar.ofBits .f32 0x00000000#32)
      = subf (broadcast S512 (Scalar.ofBits .f32 0x3F59999A#32))
          (select (k0_pay19 v17)
            (shapeCast S512 (mulf (negSumCol v6 v9 v14 v15 v38) (broadcast S512x1 (Scalar.ofBits .f32 0x3E000000#32)))
              shapeCasts_S512x1_S512)
            (broadcast S512 (Scalar.ofBits .f32 0x00000000#32))) := rfl

end Generic2

/-! ## Reading the pieces at a row -/

/-- The lane numbers along axis 1 of the 512 × 256 block. -/
abbrev lanes : IVec S512x256 32 := iota .tc S512x256 32 [1] iota_S512x256_d1_w32

/-- The one-hot matrix of an index column at (p, j): 1 when j is the index of row p, else 0. -/
theorem oneHot_apply (idx : IVec S512x1 32) (p : Fin 512) (j : Fin 256) :
    oneHot (F := Ideal) lanes idx (ix2 p j)
      = if BitVec.ofNat 32 j.val = idx (ix2 p (0 : Fin 1)) then (1 : EReal) else 0 := by
  show FloatOps.sitofp (F := Ideal) .f32 ((IntOp.cmpi .eq (iota .tc S512x256 32 [1] iota_S512x256_d1_w32 (ix2 p j))
      (broadcastTo S512x256 idx broadcasts_S512x1_S512x256 (ix2 p j))).setWidth 32) = _
  rw [iota_single_apply, broadcastTo_a1_ab_apply]
  exact onehot_val _ _

/-- The one-hot selection of a column: at row p, the entry of the matrix at the lane the index of row p names. -/
theorem pickCol_apply (m : FVec Ideal S512x256 .f32) (idx : IVec S512x1 32) (p : Fin 512) (w : BitVec 32)
    (hidx : idx (ix2 p (0 : Fin 1)) = w) (hw : w.toNat < 256) :
    pickCol m (oneHot lanes idx) (ix2 p (0 : Fin 1)) = m (ix2 p ⟨w.toNat, hw⟩) := by
  refine (shapeCast_a_a1_apply _ _ p 0).trans ?_
  refine (laneSum_apply _ _ _ _ _ p).trans ?_
  refine (Finset.sum_congr rfl fun j _ => ?_).trans (onehot_sum (fun j => m (ix2 p j)) w hw)
  show m (ix2 p j) * oneHot (F := Ideal) lanes idx (ix2 p j) = _
  rw [oneHot_apply, hidx]

/-- The row of squared anchor norms spread down the rows reads, at (p, l), its entry l. -/
theorem spread_row_apply (v14 : FVec Ideal S1x256 .f32) (p : Fin 512) (l : Fin 256) :
    broadcastTo S512x256 v14 broadcasts_S1x256_S512x256 (ix2 p l) = v14 (ix2 (0 : Fin 1) l) :=
  broadcastTo_apply v14 broadcasts_S1x256_S512x256 (ix2 p l) (ix2 (0 : Fin 1) l) fun a =>
    match a with
    | ⟨0, _⟩ => rfl
    | ⟨1, _⟩ => rfl

/-- The distance column at row p, for an index below 256: the root of the clipped, shifted expanded square at the
    lane the index names. -/
theorem distCol_apply (v6 : FVec Ideal S512x256 .f32) (v9 : FVec Ideal S512x1 .f32) (v14 : FVec Ideal S1x256 .f32)
    (idx : IVec S512x1 32) (p : Fin 512) (w : BitVec 32) (hidx : idx (ix2 p (0 : Fin 1)) = w) (hw : w.toNat < 256) :
    distCol v6 v9 v14 lanes idx (ix2 p (0 : Fin 1))
      = Ideal.sqrt (max ((v9 (ix2 p (0 : Fin 1)) - two * v6 (ix2 p ⟨w.toNat, hw⟩)) + v14 (ix2 (0 : Fin 1) ⟨w.toNat, hw⟩)) z0 + eps) := by
  show Ideal.sqrt (max ((v9 (ix2 p (0 : Fin 1)) - two * pickCol v6 (oneHot lanes idx) (ix2 p (0 : Fin 1)))
      + pickCol (broadcastTo S512x256 v14 broadcasts_S1x256_S512x256) (oneHot lanes idx) (ix2 p (0 : Fin 1))) z0 + eps) = _
  rw [pickCol_apply v6 idx p w hidx hw, pickCol_apply _ idx p w hidx hw, spread_row_apply]

/-! ## The three tables the distance is read from -/

/-- The matrix of dot products at (p, l): x_p · a_l. The rounding to the product's input format is the identity on
    extended reals, and the anchor block enters transposed. -/
theorem pay3_apply (x0 : Vec Ideal S512x512 .f32) (x3 : Vec Ideal S256x512 .f32) (p : Fin 512) (l : Fin 256) :
    k0_pay3 x0 x3 (ix2 p l) = ∑ k : Fin 512, x0 (ix2 p k) * x3 (ix2 l k) := by
  show matmul (F := Ideal) dot_S512x512_S512x256_S512x256_1_0_0_1_n_n none (truncf .bf16 x0 bitsLt_bf16_f32)
      (transpose S512x256 [1, 0] (truncf .bf16 (shapeCast S256x512 x3 shapeCasts_S256x512_S256x512) bitsLt_bf16_f32)
        transposes_S256x512_p1_0_S512x256) (constant S512x256 .f32 0x00000000#32) (ix2 p l) = _
  refine (Cert.Lib.Dot.matmul0_rc dot_S512x512_S512x256_S512x256_1_0_0_1_n_n ⟨rfl, rfl, rfl, rfl, rfl, rfl⟩ _ _ p l).trans ?_
  refine Finset.sum_congr rfl fun k _ => ?_
  refine congrArg (fun t => x0 (ix2 p k) * t) ?_
  refine (transpose_apply [1, 0] _ transposes_S256x512_p1_0_S512x256 (ix2 k l) (ix2 l k) fun b =>
    match b with
    | ⟨0, _⟩ => rfl
    | ⟨1, _⟩ => rfl).trans ?_
  show shapeCast S256x512 x3 shapeCasts_S256x512_S256x512 (ix2 l k) = x3 (ix2 l k)
  rw [shapeCast_self]

/-- The column of squared row norms at row p: |x_p|². -/
theorem pay4_apply (x0 : Vec Ideal S512x512 .f32) (p : Fin 512) :
    k0_pay4 x0 (ix2 p (0 : Fin 1)) = ∑ k : Fin 512, x0 (ix2 p k) * x0 (ix2 p k) := by
  show shapeCast S512x1 (multiReduction .add [1] S512 (mulf x0 x0 : FVec Ideal S512x512 .f32) 0x00000000#32 reduces_S512x512_S512 (.inl rfl) rfl)
      shapeCasts_S512_S512x1 (ix2 p (0 : Fin 1)) = _
  refine (shapeCast_a_a1_apply _ _ p 0).trans ?_
  exact laneSum_apply _ _ _ _ _ p

/-- The row of squared anchor norms at lane l: |a_l|². -/
theorem pay5_apply (x3 : Vec Ideal S256x512 .f32) (l : Fin 256) :
    k0_pay5 x3 (ix2 (0 : Fin 1) l) = ∑ k : Fin 512, x3 (ix2 l k) * x3 (ix2 l k) := by
  show shapeCast S1x256 (shapeCast S256 (shapeCast S256x1
      (multiReduction .add [1] S256 (mulf (k0_pay2 x3) (k0_pay2 x3)) 0x00000000#32 reduces_S256x512_S256 (.inl rfl) rfl)
      shapeCasts_S256_S256x1) shapeCasts_S256x1_S256) shapeCasts_S256_S1x256 (ix2 (0 : Fin 1) l) = _
  rw [shapeCast_shapeCast]
  refine (shapeCast_apply _ shapeCasts_S256_S1x256 (ix2 (0 : Fin 1) l) (ix1 l) ?_).trans ?_
  · rw [Shape.rowMajor_val_one, Shape.rowMajor_val_two]
    show l.val = 0 * 256 + l.val
    omega
  · refine (laneSum_apply _ _ _ _ _ l).trans ?_
    have e : k0_pay2 x3 = x3 := shapeCast_self _ _
    rw [e]
    rfl

/-! ## The distance of a row to an anchor -/

/-- The distance of row p of a feature block to row l of the padded anchor block. -/
def rowDist (x0 : Vec Ideal S512x512 .f32) (x3 : Vec Ideal S256x512 .f32) (p : Fin 512) (l : Fin 256) : EReal :=
  Ideal.sqrt (max (((∑ k : Fin 512, x0 (ix2 p k) * x0 (ix2 p k)) - two * ∑ k : Fin 512, x0 (ix2 p k) * x3 (ix2 l k))
      + ∑ k : Fin 512, x3 (ix2 l k) * x3 (ix2 l k)) z0 + eps)

/-- The distance column over the body's three tables, at row p, for an index below 256: the distance of row p to
    the anchor the index names. -/
theorem dist_row (x0 : Vec Ideal S512x512 .f32) (x3 : Vec Ideal S256x512 .f32) (idx : IVec S512x1 32) (p : Fin 512)
    (w : BitVec 32) (hidx : idx (ix2 p (0 : Fin 1)) = w) (hw : w.toNat < 256) :
    distCol (k0_pay3 x0 x3) (k0_pay4 x0) (k0_pay5 x3) lanes idx (ix2 p (0 : Fin 1)) = rowDist x0 x3 p ⟨w.toNat, hw⟩ := by
  rw [distCol_apply _ _ _ idx p w hidx hw, pay3_apply, pay4_apply, pay5_apply]
  rfl

/-! ## The label test and the columns read as vectors -/

/-- A 512 × 1 column read as a vector of 512 reads, at p, the column at (p, 0). -/
theorem cast_col_apply {α : Type} (v : S512x1.Idx → α) (p : Fin 512) :
    shapeCast S512 v shapeCasts_S512x1_S512 (ix1 p) = v (ix2 p (0 : Fin 1)) :=
  shapeCast_apply v shapeCasts_S512x1_S512 (ix1 p) (ix2 p (0 : Fin 1)) (by
    rw [Shape.rowMajor_val_one, Shape.rowMajor_val_two]
    show p.val * 1 + 0 = p.val
    omega)

/-- A selection on "the word is not 255" takes its second value exactly at 255. -/
theorem select_ne255 (w : BitVec 32) (a b : EReal) :
    Scalar.select (IntOp.cmpi .ne w 255#32) a b = if w = 255#32 then b else a := by
  unfold Scalar.select
  by_cases h : w = 255#32
  · rw [if_pos h, if_neg]
    intro hc
    exact (IntOp.cmpi_ne.1 hc) h
  · rw [if_neg h]
    exact if_pos (IntOp.cmpi_ne.2 h)

/-- The label test at row p. -/
theorem pay19_apply (v17 : IVec S512x1 32) (p : Fin 512) :
    k0_pay19 v17 (ix1 p) = IntOp.cmpi .ne (v17 (ix2 p (0 : Fin 1))) 255#32 := by
  show IntOp.cmpi .ne (shapeCast S512 v17 shapeCasts_S512x1_S512 (ix1 p)) 255#32 = _
  rw [cast_col_apply]

/-- A column of one of the eight negative indices at row p. -/
theorem slice_apply {α : Type} (v : S512x8.Idx → α) (k : ℕ) (hk : k < 8) (h : S512x8.Slices ![0, k] S512x1) (p : Fin 512) :
    extractStridedSlice S512x1 ![0, k] v h (ix2 p (0 : Fin 1)) = v (ix2 p ⟨k, hk⟩) :=
  extractStridedSlice_apply _ v h (ix2 p (0 : Fin 1)) (ix2 p ⟨k, hk⟩) fun a =>
    match a with
    | ⟨0, _⟩ => (Nat.zero_add p.val).symm
    | ⟨1, _⟩ => (Nat.add_zero k).symm

/-- The zero offsets of a rank-2 whole-buffer rectangle, however spelt. -/
theorem hz2 : (![0, 0] : Fin 2 → Nat) = fun _ => 0 := funext fun a => by fin_cases a <;> rfl
/-- The zero offset of a rank-1 whole-buffer rectangle. -/
theorem hz1 : (![0] : Fin 1 → Nat) = fun _ => 0 := funext fun a => by fin_cases a <;> rfl

/-! ## The positive output at a row -/

/-- The positive output's payload at row p. -/
theorem pay20_apply (v17 : IVec S512x1 32) (v37 : FVec Ideal S512x1 .f32) (p : Fin 512) :
    k0_pay20 v17 v37 (ix1 p)
      = max ((if v17 (ix2 p (0 : Fin 1)) = 255#32 then z0 else v37 (ix2 p (0 : Fin 1))) - z0) z0 := by
  show max (Scalar.select (k0_pay19 v17 (ix1 p)) (shapeCast S512 v37 shapeCasts_S512x1_S512 (ix1 p)) z0 - z0) z0 = _
  rw [pay19_apply, cast_col_apply, select_ne255]

/-- The positive output at row p: the clipped distance of row p to the anchor its label names, zero for label 255. -/
theorem out4_row (x0 : Vec Ideal S512x512 .f32) (x1 : Vec Ideal S512x1 .i32) (x2 : Vec Ideal S512x8 .i32)
    (x3 : Vec Ideal S256x512 .f32) (p : Fin 512) (hl : (x1 (ix2 p (0 : Fin 1))).toNat < 256) :
    out0_4 (F := Ideal) x0 x1 x2 x3 (ix1 p)
      = max ((if x1 (ix2 p (0 : Fin 1)) = 255#32 then z0
          else rowDist x0 x3 p ⟨(x1 (ix2 p (0 : Fin 1))).toNat, hl⟩) - z0) z0 := by
  unfold out0_4
  rw [View.canon_unit_zero hz1]
  simp only [View.ld_unit_zero (S := S512x512) hz2, View.ld_unit_zero (S := S512x1) hz2,
    View.ld_unit_zero (S := S256x512) hz2]
  have e6 : k0_pay6 (F := Ideal) x1 = x1 := shapeCast_self _ _
  rw [pay7_eq, e6, pay20_apply, dist_row x0 x3 x1 p _ rfl hl]

/-! ## The negative output at a row -/

/-- The sum of the eight negative distance columns at row p. -/
theorem negSumCol_apply (x0 : Vec Ideal S512x512 .f32) (x2 : Vec Ideal S512x8 .i32) (x3 : Vec Ideal S256x512 .f32)
    (p : Fin 512) (hn : ∀ k : Fin 8, (x2 (ix2 p k)).toNat < 256) :
    negSumCol (k0_pay3 x0 x3) (k0_pay4 x0) (k0_pay5 x3) lanes x2 (ix2 p (0 : Fin 1))
      = ∑ k : Fin 8, rowDist x0 x3 p ⟨(x2 (ix2 p k)).toNat, hn k⟩ := by
  unfold negSumCol
  simp only [addf_apply]
  rw [dist_row x0 x3 _ p (x2 (ix2 p 0)) (slice_apply x2 0 (by omega) _ p) (hn 0),
    dist_row x0 x3 _ p (x2 (ix2 p 1)) (slice_apply x2 1 (by omega) _ p) (hn 1),
    dist_row x0 x3 _ p (x2 (ix2 p 2)) (slice_apply x2 2 (by omega) _ p) (hn 2),
    dist_row x0 x3 _ p (x2 (ix2 p 3)) (slice_apply x2 3 (by omega) _ p) (hn 3),
    dist_row x0 x3 _ p (x2 (ix2 p 4)) (slice_apply x2 4 (by omega) _ p) (hn 4),
    dist_row x0 x3 _ p (x2 (ix2 p 5)) (slice_apply x2 5 (by omega) _ p) (hn 5),
    dist_row x0 x3 _ p (x2 (ix2 p 6)) (slice_apply x2 6 (by omega) _ p) (hn 6),
    dist_row x0 x3 _ p (x2 (ix2 p 7)) (slice_apply x2 7 (by omega) _ p) (hn 7)]
  have hz : k0_pay8 (F := Ideal) (ix2 p (0 : Fin 1)) = 0 := Ideal.ofBits_zero_f32
  rw [hz, zero_add, Fin.sum_univ_eight]

/-- The negative output at row p: the margin minus the mean of the eight distances to the anchors the row's negative
    indices name (zero for label 255), clipped below at zero. -/
theorem out5_row (x0 : Vec Ideal S512x512 .f32) (x1 : Vec Ideal S512x1 .i32) (x2 : Vec Ideal S512x8 .i32)
    (x3 : Vec Ideal S256x512 .f32) (p : Fin 512) (hn : ∀ k : Fin 8, (x2 (ix2 p k)).toNat < 256) :
    out0_5 (F := Ideal) x0 x1 x2 x3 (ix1 p)
      = max (margin - (if x1 (ix2 p (0 : Fin 1)) = 255#32 then z0
          else (∑ k : Fin 8, rowDist x0 x3 p ⟨(x2 (ix2 p k)).toNat, hn k⟩) * eighth)) z0 := by
  unfold out0_5
  rw [View.canon_unit_zero hz1]
  simp only [View.ld_unit_zero (S := S512x512) hz2, View.ld_unit_zero (S := S512x1) hz2,
    View.ld_unit_zero (S := S512x8) hz2, View.ld_unit_zero (S := S256x512) hz2]
  have e6 : k0_pay6 (F := Ideal) x1 = x1 := shapeCast_self _ _
  rw [pay21_eq, e6]
  show max (margin - Scalar.select (k0_pay19 x1 (ix1 p))
      (shapeCast S512 (mulf (negSumCol (k0_pay3 x0 x3) (k0_pay4 x0) (k0_pay5 x3) lanes x2)
        (broadcast S512x1 (Scalar.ofBits .f32 0x3E000000#32))) shapeCasts_S512x1_S512 (ix1 p)) z0) z0 = _
  rw [pay19_apply, cast_col_apply, select_ne255]
  show max (margin - (if x1 (ix2 p (0 : Fin 1)) = 255#32 then z0
      else negSumCol (k0_pay3 x0 x3) (k0_pay4 x0) (k0_pay5 x3) lanes x2 (ix2 p (0 : Fin 1)) * eighth)) z0 = _
  rw [negSumCol_apply x0 x2 x3 p hn]

end Cert.KBody

end
-- ==== Proof.KValue.lean ====
/-
  The idealized kernel's three results are the specification's.

  Point t of the grid writes back entries 512·t … 512·t + 511 of the two loss arrays; entry p of what it writes is
  the body's row-p value of the point's blocks, and those blocks are rows 512·t + p of the arguments, so the entry
  is the specification's loss of row 512·t + p. The 512 blocks cover the arrays. The scalar loss is the host lines
  after the region applied to the two arrays.
-/
import proofs.«418721_j84713934946579_2_alg».proof.Proof.KArrays
import proofs.«418721_j84713934946579_2_alg».proof.Proof.KBody

set_option maxRecDepth 16384

noncomputable section

namespace Cert.KernelIdeal.KValue

open Cert.KernelIdeal Cert.KernelIdeal.Gen Cert.KernelIdeal.Blocks Cert.Contrast Cert.KBody
open Idealize.ShloMosaic Idealize.ShloMosaic.TcCoe Idealize.SL.Sem Idealize.ShloMosaic.StableHlo
open Idealize.ShloMosaic.ValueIdx
open Idealize.ShloMosaic.Pipeline (Dat Cfg Window)
open scoped BigOperators

variable (m : (ℓ : Loc nD τ sig) → Buf (Elt Ideal) ℓ) (ρ : Dev nD → PrngReg)

/-- The four argument arrays as the run finds them. -/
abbrev argX (c : Dev nD) : FVec Ideal SX .f32 := m ((c : Thread nD τ).loc main_arg0)
abbrev argL (c : Dev nD) : IVec SL 32 := m ((c : Thread nD τ).loc main_arg1)
abbrev argA (c : Dev nD) : FVec Ideal SA .f32 := m ((c : Thread nD τ).loc main_arg2)
abbrev argN (c : Dev nD) : IVec SN 32 := m ((c : Thread nD τ).loc main_arg3)

/-- The row of the arrays that row p of point t's blocks is. -/
def rowOf (t : Fin cfg0.N) (p : Fin 512) : Fin 262144 :=
  ⟨512 * t.val + p.val, by have := t.isLt; have := p.isLt; have hN : cfg0.N = 512 := N_0; omega⟩

/-- The body's block distance to a table row below 200 is the specification's distance to that anchor. -/
theorem rowDist_eq (c : Dev nD) (t : Fin cfg0.N) (p : Fin 512) (l : Fin 256) (hl : l.val < 200) :
    rowDist (iblk m c 0 t) (iblk m c 3 t) p l = Contrast.dist (argX m c) (argA m c) (rowOf t p) ⟨l.val, hl⟩ := by
  unfold rowDist Contrast.dist sqX sqA dotXA
  simp only [fun k => xblk_arg m c t p k (rowOf t p) rfl, fun k => ablk_arg m c t l k hl]

/-- Row p of what point t leaves in the positive-loss block is the positive loss of row 512·t + p. -/
theorem pos_row (c : Dev nD) (hL : LabelsOk (argL m c)) (t : Fin cfg0.N) (p : Fin 512) :
    out0_4 (F := Ideal) (iblk m c 0 t) (iblk m c 1 t) (iblk m c 2 t) (iblk m c 3 t) (ix1 p)
      = posLoss (argX m c) (argL m c) (argA m c) (ix1 (rowOf t p)) := by
  have hw : (iblk m c 1 t : Vec Ideal S512x1 .i32) (ix2 p (0 : Fin 1)) = argL m c (ix1 (rowOf t p)) :=
    lblk_arg m c t p (rowOf t p) rfl
  have hdom := hL (ix1 (rowOf t p))
  have h256 : ((iblk m c 1 t : Vec Ideal S512x1 .i32) (ix2 p (0 : Fin 1))).toNat < 256 := by
    rw [hw]; rcases hdom with h | h
    · rw [h]; decide
    · omega
  rw [out4_row (iblk m c 0 t) (iblk m c 1 t) (iblk m c 2 t) (iblk m c 3 t) p h256]
  show _ = max ((if argL m c (ix1 (rowOf t p)) = 255#32 then z0
      else Contrast.dist (argX m c) (argA m c) (rowOf t p) (anchorOf (argL m c (ix1 (rowOf t p))))) - z0) z0
  by_cases h255 : argL m c (ix1 (rowOf t p)) = 255#32
  · rw [if_pos (hw.trans h255), if_pos h255]
  · have hlt : (argL m c (ix1 (rowOf t p))).toNat < 200 := hdom.resolve_left h255
    rw [if_neg (fun h => h255 (hw.symm.trans h)), if_neg h255, rowDist_eq m c t p _ (lt_of_eq_of_lt (congrArg BitVec.toNat hw) hlt),
      anchorOf_of_lt hlt]
    congr 3
    exact Fin.ext (congrArg BitVec.toNat hw)

/-- Row p of what point t leaves in the negative-loss block is the negative loss of row 512·t + p. -/
theorem neg_row (c : Dev nD) (hN : NegsOk (argN m c)) (t : Fin cfg0.N) (p : Fin 512) :
    out0_5 (F := Ideal) (iblk m c 0 t) (iblk m c 1 t) (iblk m c 2 t) (iblk m c 3 t) (ix1 p)
      = negLoss (argX m c) (argL m c) (argA m c) (argN m c) (ix1 (rowOf t p)) := by
  have hw : (iblk m c 1 t : Vec Ideal S512x1 .i32) (ix2 p (0 : Fin 1)) = argL m c (ix1 (rowOf t p)) :=
    lblk_arg m c t p (rowOf t p) rfl
  have hn : ∀ k : Fin 8, (iblk m c 2 t : Vec Ideal S512x8 .i32) (ix2 p k) = argN m c (ix2 (rowOf t p) k) :=
    fun k => nblk_arg m c t p k (rowOf t p) rfl
  have hlt : ∀ k : Fin 8, (argN m c (ix2 (rowOf t p) k)).toNat < 200 := fun k => hN _
  have h256 : ∀ k : Fin 8, ((iblk m c 2 t : Vec Ideal S512x8 .i32) (ix2 p k)).toNat < 256 := fun k => by
    rw [hn k]; have := hlt k; omega
  rw [out5_row (iblk m c 0 t) (iblk m c 1 t) (iblk m c 2 t) (iblk m c 3 t) p h256]
  show _ = max (margin - (if argL m c (ix1 (rowOf t p)) = 255#32 then z0
      else negSum (argX m c) (argA m c) (argN m c) (rowOf t p) * eighth)) z0
  have hsum : (∑ k : Fin 8, rowDist (iblk m c 0 t) (iblk m c 3 t) p
        ⟨((iblk m c 2 t : Vec Ideal S512x8 .i32) (ix2 p k)).toNat, h256 k⟩)
      = negSum (argX m c) (argA m c) (argN m c) (rowOf t p) := by
    unfold negSum
    refine Finset.sum_congr rfl fun k _ => ?_
    rw [rowDist_eq m c t p _ (lt_of_eq_of_lt (congrArg BitVec.toNat (hn k)) (hlt k)),
      anchorOf_of_lt (hlt k)]
    congr 1
    exact Fin.ext (congrArg BitVec.toNat (hn k))
  rw [hsum, hw]

/-- The rows of the arrays that point t's output blocks cover. -/
theorem emb4 (t : Fin cfg0.N) (p : Fin 512) : ((cfg0.win 4).blk t).view.emb (ix1 p) = ix1 (rowOf t p) := by
  obtain ⟨-, -, -, -, -, -, -, -, e4, -⟩ := idx_facts t
  funext a
  apply Fin.ext
  match a with
  | ⟨0, _⟩ => show win0_4.index t 0 * 512 + 1 * p.val = 512 * t.val + p.val; rw [e4]; omega

theorem emb5 (t : Fin cfg0.N) (p : Fin 512) : ((cfg0.win 5).blk t).view.emb (ix1 p) = ix1 (rowOf t p) := by
  obtain ⟨-, -, -, -, -, -, -, -, -, e5⟩ := idx_facts t
  funext a
  apply Fin.ext
  match a with
  | ⟨0, _⟩ => show win0_5.index t 0 * 512 + 1 * p.val = 512 * t.val + p.val; rw [e5]; omega

/-- What point t writes back to the positive-loss array is block t of the specification's positive loss. -/
theorem flushed4_eq (c : Dev nD) (hL : LabelsOk (argL m c)) (t : Fin cfg0.N) :
    (dats m 0 c).flushed 4 t
      = ((cfg0.win 4).blk t).view.read (Elt Ideal) (posLoss (argX m c) (argL m c) (argA m c)) := by
  show (cfg0.win 4).cut (grid0.coords t) ((dats m 0 c).after 4 t) = _
  rw [after0_4]
  funext j
  obtain ⟨p, rfl⟩ : ∃ p : Fin 512, j = ix1 p := ⟨j 0, eq_ix1 j⟩
  rw [View.read_apply, emb4 t p]
  exact pos_row m c hL t p

/-- What point t writes back to the negative-loss array is block t of the specification's negative loss. -/
theorem flushed5_eq (c : Dev nD) (hN : NegsOk (argN m c)) (t : Fin cfg0.N) :
    (dats m 0 c).flushed 5 t
      = ((cfg0.win 5).blk t).view.read (Elt Ideal) (negLoss (argX m c) (argL m c) (argA m c) (argN m c)) := by
  show (cfg0.win 5).cut (grid0.coords t) ((dats m 0 c).after 5 t) = _
  rw [after0_5]
  funext j
  obtain ⟨p, rfl⟩ : ∃ p : Fin 512, j = ix1 p := ⟨j 0, eq_ix1 j⟩
  rw [View.read_apply, emb5 t p]
  exact neg_row m c hN t p

/-- An entry of a loss array is in point t's block iff it lies in rows 512·t … 512·t + 511. -/
theorem mem_blk4 (t : Fin cfg0.N) (i : S262144.Idx) :
    i ∈ ((cfg0.win 4).blk t).view.set ↔ ∀ a : Fin 1, win0_4.index t a * S512.size a ≤ (i a).val
      ∧ (i a).val < win0_4.index t a * S512.size a + S512.size a := by
  show i ∈ ((View.whole main_v2_0).slice (win0_4.rect t)).set ↔ _
  rw [View.set_slice_whole, Rect.mem_set_unit]
  exact Iff.rfl

theorem mem_blk5 (t : Fin cfg0.N) (i : S262144.Idx) :
    i ∈ ((cfg0.win 5).blk t).view.set ↔ ∀ a : Fin 1, win0_5.index t a * S512.size a ≤ (i a).val
      ∧ (i a).val < win0_5.index t a * S512.size a + S512.size a := by
  show i ∈ ((View.whole main_v2_1).slice (win0_5.rect t)).set ↔ _
  rw [View.set_slice_whole, Rect.mem_set_unit]
  exact Iff.rfl

/-- The point whose blocks hold entry i: i / 512. -/
def pointOf (i : S262144.Idx) : Fin cfg0.N :=
  ⟨(i 0).val / 512, by have hi : (i 0).val < 262144 := (i 0).isLt; have hN : cfg0.N = 512 := N_0; rw [hN]; omega⟩

/-- The positive-loss array after the run is the specification's. -/
theorem final4 (c : Dev nD) (hL : LabelsOk (argL m c)) :
    (dats m 0 c).arrAt 4 cfg0.N = posLoss (argX m c) (argL m c) (argA m c) :=
  (dats m 0 c).arrAt_eq_of_cover 4 (posLoss (argX m c) (argL m c) (argA m c)) (fun t _ => flushed4_eq m c hL t) fun i =>
    ⟨pointOf i, flush0_4 (pointOf i), by
      obtain ⟨-, -, -, -, -, -, -, -, e4, -⟩ := idx_facts (pointOf i)
      rw [mem_blk4]
      intro a
      have hi : (i 0).val < 262144 := (i 0).isLt
      match a with
      | ⟨0, _⟩ =>
        show win0_4.index (pointOf i) 0 * 512 ≤ (i 0).val ∧ (i 0).val < win0_4.index (pointOf i) 0 * 512 + 512
        rw [e4]
        show (i 0).val / 512 * 512 ≤ (i 0).val ∧ (i 0).val < (i 0).val / 512 * 512 + 512
        omega⟩

/-- The negative-loss array after the run is the specification's. -/
theorem final5 (c : Dev nD) (hN : NegsOk (argN m c)) :
    (dats m 0 c).arrAt 5 cfg0.N = negLoss (argX m c) (argL m c) (argA m c) (argN m c) :=
  (dats m 0 c).arrAt_eq_of_cover 5 (negLoss (argX m c) (argL m c) (argA m c) (argN m c)) (fun t _ => flushed5_eq m c hN t) fun i =>
    ⟨pointOf i, flush0_5 (pointOf i), by
      obtain ⟨-, -, -, -, -, -, -, -, -, e5⟩ := idx_facts (pointOf i)
      rw [mem_blk5]
      intro a
      have hi : (i 0).val < 262144 := (i 0).isLt
      match a with
      | ⟨0, _⟩ =>
        show win0_5.index (pointOf i) 0 * 512 ≤ (i 0).val ∧ (i 0).val < win0_5.index (pointOf i) 0 * 512 + 512
        rw [e5]
        show (i 0).val / 512 * 512 ≤ (i 0).val ∧ (i 0).val < (i 0).val / 512 * 512 + 512
        omega⟩

end Cert.KernelIdeal.KValue

end
-- ==== Proof.KRun.lean ====
/-
  The idealized kernel's run, read: the three results at the specification's values, the arguments unchanged.
-/
import proofs.«418721_j84713934946579_2_alg».proof.Proof.KValue

set_option maxRecDepth 16384

noncomputable section

namespace Cert.KernelIdeal.KValue

open Cert.KernelIdeal Cert.KernelIdeal.Gen Cert.KernelIdeal.Blocks Cert.Contrast Cert.KBody
open Idealize.ShloMosaic Idealize.ShloMosaic.TcCoe Idealize.SL.Sem Idealize.ShloMosaic.StableHlo
open Idealize.ShloMosaic.ValueIdx
open Idealize.ShloMosaic.Pipeline (Dat Cfg Window)

variable (m : (ℓ : Loc nD τ sig) → Buf (Elt Ideal) ℓ) (ρ : Dev nD → PrngReg)

/-- The scalar loss: the host lines after the region applied to the two loss arrays the region leaves. -/
theorem tail_eq (c : Dev nD) (hL : LabelsOk (argL m c)) (hN : NegsOk (argN m c)) :
    Pipeline.afterTail₀ cfgs (dats m) 0 (V0 m) [hostOps1] c main_v8
      = total reducesTo_S262144_S_d0 h_S_ (posLoss (argX m c) (argL m c) (argA m c))
          (negLoss (argX m c) (argL m c) (argA m c) (argN m c)) := by
  unfold Pipeline.afterTail₀
  show StableHlo.after hostOps1 _ (Proc.devRef .tc main_v8) = _
  after_results
  have e4 : Pipeline.withArrays (cfgs 0).spec c (V0 m c) (fun w => (dats m 0 c).arrAt w (cfgs 0).N) (Proc.devRef .tc main_v2_0)
      = posLoss (argX m c) (argL m c) (argA m c) :=
    (Pipeline.withArrays_arr spec0 launch0.win.arr_inj c (V0 m c) (fun w => (dats m 0 c).arrAt w (cfgs 0).N) 4).trans
      (final4 m c hL)
  have e5 : Pipeline.withArrays (cfgs 0).spec c (V0 m c) (fun w => (dats m 0 c).arrAt w (cfgs 0).N) (Proc.devRef .tc main_v2_1)
      = negLoss (argX m c) (argL m c) (argA m c) (argN m c) :=
    (Pipeline.withArrays_arr spec0 launch0.win.arr_inj c (V0 m c) (fun w => (dats m 0 c).arrAt w (cfgs 0).N) 5).trans
      (final5 m c hN)
  rw [e4, e5]
  rfl

/-- On the claim's domain every weakly fair execution of the idealized kernel's @main terminates with the scalar loss,
    the positive losses and the negative losses at the specification's values and the four arguments unchanged. -/
theorem run (hL : ∀ c, LabelsOk (argL m c)) (hN : ∀ c, NegsOk (argN m c)) :
    θ_run defs (onTc (τ := τ) (main (F := Ideal))) ⟨m, fun _ => 0, ρ⟩ fun r => ∀ c : Dev nD,
      r.2.mem ((c.tc : Thread nD τ).loc main_v8)
          = total reducesTo_S262144_S_d0 h_S_ (posLoss (argX m c) (argL m c) (argA m c))
              (negLoss (argX m c) (argL m c) (argA m c) (argN m c))
      ∧ r.2.mem ((c.tc : Thread nD τ).loc main_v2_0) = posLoss (argX m c) (argL m c) (argA m c)
      ∧ r.2.mem ((c.tc : Thread nD τ).loc main_v2_1) = negLoss (argX m c) (argL m c) (argA m c) (argN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v8 (Pipeline.mem_restRefs_of main_v8 (by decide) (by decide))).trans (tail_eq m c (hL c) (hN c)),
        ((h c).1 4).trans (final4 m c (hL c)),
        ((h c).1 5).trans (final5 m c (hN c)),
        ((h c).1 0).trans (((dats m 0 c).arrAt_in 0 rfl _).trans ((A_eq m c 0).trans (V_main_arg0 m c))),
        (((h c).2 main_arg1 (Pipeline.mem_restRefs_of main_arg1 (by decide) (by decide))).trans (W_main_arg1 m (dats m) c)),
        (((h c).2 main_arg2 (Pipeline.mem_restRefs_of main_arg2 (by decide) (by decide))).trans (W_main_arg2 m (dats m) c)),
        ((h c).1 2).trans (((dats m 0 c).arrAt_in 2 rfl _).trans ((A_eq m c 2).trans (V_main_arg3 m c)))⟩)
    (run_main m ρ)

end Cert.KernelIdeal.KValue

end
-- ==== Proof.RefRunHand.lean ====
/-
  The reference program's run, stretch by stretch.

  The reference's @main is a straight line of 137 host operations. It is cut into six stretches; each stretch's
  results that later stretches read are computed from the contents it finds, and are the stage functions of the
  arguments: the product table, the squared norms and the label column; the gathered positive products; the
  positive distance; the gathered negative products; the mean negative distance; the three results. Composed over
  the whole line they give every weakly fair execution's final contents of the three result buffers.
-/
import proofs.«418721_j84713934946579_2_alg».proof.Proof.RefOps
import proofs.«418721_j84713934946579_2_alg».proof.Proof.RefStages
import Idealize.ShloMosaic.Lib.StableHlo.Run

set_option maxRecDepth 65536

noncomputable section

namespace Cert.ReferenceIdeal.HandRun

open Cert.ReferenceIdeal Cert.ReferenceIdeal.Gen Cert.ReferenceIdeal.Ops Cert.ReferenceIdeal.Stages
open Idealize.ShloMosaic Idealize.ShloMosaic.TcCoe Idealize.SL.Sem Idealize.ShloMosaic.StableHlo

variable {F : FTy → Type} [FloatOps F]

/-- Running two stretches one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Stretch A from any contents: its four live results as stages of the argument buffers' contents. -/
theorem stageA (W : Valuation τ sig (Elt F)) :
    after opsA W (Proc.devRef .tc main_v1) = val_main_v1 (F := F) (W (Proc.devRef .tc main_arg0)) (W (Proc.devRef .tc main_arg2))
    ∧ after opsA W (Proc.devRef .tc main_v3) = val_main_v3 (F := F) (W (Proc.devRef .tc main_arg0))
    ∧ after opsA W (Proc.devRef .tc main_v5) = val_main_v5 (F := F) (W (Proc.devRef .tc main_arg2))
    ∧ after opsA W (Proc.devRef .tc main_v6) = val_main_v6 (F := F) (W (Proc.devRef .tc main_arg1)) := by
  refine ⟨?_, ?_, ?_, ?_⟩ <;> after_results_simp <;> rfl

/-- Stretch B: the gathered positive products from the product table and the label column. -/
theorem stageB (W : Valuation τ sig (Elt F)) (x0 : (⟨S262144x512, .f32⟩ : BufTy).Contents (Elt F))
    (x1 : (⟨S262144, .i32⟩ : BufTy).Contents (Elt F)) (x2 : (⟨S200x512, .f32⟩ : BufTy).Contents (Elt F))
    (h1 : W (Proc.devRef .tc main_v1) = val_main_v1 (F := F) x0 x2) (h6 : W (Proc.devRef .tc main_v6) = val_main_v6 (F := F) x1) :
    after opsB W (Proc.devRef .tc main_v7) = val_main_v7 (F := F) x0 x1 x2 := by
  after_results_simp
  simp only [TRef.ofBuf, TRef.toBuf, cast_eq, h1, h6]
  rfl

/-- Stretch A writes neither the labels nor the negative indices. -/
theorem keepA (W : Valuation τ sig (Elt F)) :
    after opsA W (Proc.devRef .tc main_arg1) = W (Proc.devRef .tc main_arg1)
    ∧ after opsA W (Proc.devRef .tc main_arg3) = W (Proc.devRef .tc main_arg3) := by
  refine ⟨?_, ?_⟩ <;> after_results_simp

/-- Stretch B leaves the product table, the squared norms and the two index arguments as it finds them. -/
theorem keepB (W : Valuation τ sig (Elt F)) :
    after opsB W (Proc.devRef .tc main_v1) = W (Proc.devRef .tc main_v1)
    ∧ after opsB W (Proc.devRef .tc main_v3) = W (Proc.devRef .tc main_v3)
    ∧ after opsB W (Proc.devRef .tc main_v5) = W (Proc.devRef .tc main_v5)
    ∧ after opsB W (Proc.devRef .tc main_arg1) = W (Proc.devRef .tc main_arg1)
    ∧ after opsB W (Proc.devRef .tc main_arg3) = W (Proc.devRef .tc main_arg3) := by
  refine ⟨?_, ?_, ?_, ?_, ?_⟩ <;> after_results_simp

/-- Stretch C: the positive distance from the gathered products, the squared norms and the labels. -/
theorem stageC (W : Valuation τ sig (Elt F)) (x0 : (⟨S262144x512, .f32⟩ : BufTy).Contents (Elt F))
    (x1 : (⟨S262144, .i32⟩ : BufTy).Contents (Elt F)) (x2 : (⟨S200x512, .f32⟩ : BufTy).Contents (Elt F))
    (h7 : W (Proc.devRef .tc main_v7) = val_main_v7 (F := F) x0 x1 x2) (h3 : W (Proc.devRef .tc main_v3) = val_main_v3 (F := F) x0)
    (h5 : W (Proc.devRef .tc main_v5) = val_main_v5 (F := F) x2) (ha1 : W (Proc.devRef .tc main_arg1) = x1) :
    after opsC W (Proc.devRef .tc main_v24) = val_main_v24 (F := F) x0 x1 x2 := by
  after_results_simp
  simp only [TRef.ofBuf, TRef.toBuf, cast_eq, h7, h3, h5, ha1]
  rfl

/-- Stretch C leaves the product table, the squared norms and the two index arguments as it finds them. -/
theorem keepC (W : Valuation τ sig (Elt F)) :
    after opsC W (Proc.devRef .tc main_v1) = W (Proc.devRef .tc main_v1)
    ∧ after opsC W (Proc.devRef .tc main_v3) = W (Proc.devRef .tc main_v3)
    ∧ after opsC W (Proc.devRef .tc main_v5) = W (Proc.devRef .tc main_v5)
    ∧ after opsC W (Proc.devRef .tc main_arg1) = W (Proc.devRef .tc main_arg1)
    ∧ after opsC W (Proc.devRef .tc main_arg3) = W (Proc.devRef .tc main_arg3) := by
  refine ⟨?_, ?_, ?_, ?_, ?_⟩ <;> after_results_simp

/-- Stretch D: the products gathered at the negative indices. -/
theorem stageD (W : Valuation τ sig (Elt F)) (x0 : (⟨S262144x512, .f32⟩ : BufTy).Contents (Elt F))
    (x2 : (⟨S200x512, .f32⟩ : BufTy).Contents (Elt F)) (x3 : (⟨S262144x8, .i32⟩ : BufTy).Contents (Elt F))
    (h1 : W (Proc.devRef .tc main_v1) = val_main_v1 (F := F) x0 x2) (ha3 : W (Proc.devRef .tc main_arg3) = x3) :
    after opsD W (Proc.devRef .tc main_v25) = val_main_v25 (F := F) x0 x2 x3 := by
  after_results_simp
  simp only [TRef.ofBuf, TRef.toBuf, cast_eq, h1, ha3]
  rfl

/-- Stretch D leaves the squared norms, the positive distance and the two index arguments as it finds them. -/
theorem keepD (W : Valuation τ sig (Elt F)) :
    after opsD W (Proc.devRef .tc main_v3) = W (Proc.devRef .tc main_v3)
    ∧ after opsD W (Proc.devRef .tc main_v5) = W (Proc.devRef .tc main_v5)
    ∧ after opsD W (Proc.devRef .tc main_v24) = W (Proc.devRef .tc main_v24)
    ∧ after opsD W (Proc.devRef .tc main_arg1) = W (Proc.devRef .tc main_arg1)
    ∧ after opsD W (Proc.devRef .tc main_arg3) = W (Proc.devRef .tc main_arg3) := by
  refine ⟨?_, ?_, ?_, ?_, ?_⟩ <;> after_results_simp

/-- Stretch E: the mean negative distance. -/
theorem stageE (W : Valuation τ sig (Elt F)) (x0 : (⟨S262144x512, .f32⟩ : BufTy).Contents (Elt F))
    (x2 : (⟨S200x512, .f32⟩ : BufTy).Contents (Elt F)) (x3 : (⟨S262144x8, .i32⟩ : BufTy).Contents (Elt F))
    (h25 : W (Proc.devRef .tc main_v25) = val_main_v25 (F := F) x0 x2 x3) (h3 : W (Proc.devRef .tc main_v3) = val_main_v3 (F := F) x0)
    (h5 : W (Proc.devRef .tc main_v5) = val_main_v5 (F := F) x2) (ha3 : W (Proc.devRef .tc main_arg3) = x3) :
    after opsE W (Proc.devRef .tc main_v46) = val_main_v46 (F := F) x0 x2 x3 := by
  after_results_simp
  simp only [TRef.ofBuf, TRef.toBuf, cast_eq, h25, h3, h5, ha3]
  rfl

/-- Stretch E leaves the positive distance and the labels as it finds them. -/
theorem keepE (W : Valuation τ sig (Elt F)) :
    after opsE W (Proc.devRef .tc main_v24) = W (Proc.devRef .tc main_v24)
    ∧ after opsE W (Proc.devRef .tc main_arg1) = W (Proc.devRef .tc main_arg1) := by
  refine ⟨?_, ?_⟩ <;> after_results_simp

/-- Stretch G: the three results from the two distances and the labels. -/
theorem stageG (W : Valuation τ sig (Elt F)) (x0 : (⟨S262144x512, .f32⟩ : BufTy).Contents (Elt F))
    (x1 : (⟨S262144, .i32⟩ : BufTy).Contents (Elt F)) (x2 : (⟨S200x512, .f32⟩ : BufTy).Contents (Elt F)) (x3 : (⟨S262144x8, .i32⟩ : BufTy).Contents (Elt F))
    (h24 : W (Proc.devRef .tc main_v24) = val_main_v24 (F := F) x0 x1 x2) (h46 : W (Proc.devRef .tc main_v46) = val_main_v46 (F := F) x0 x2 x3)
    (ha1 : W (Proc.devRef .tc main_arg1) = x1) :
    after opsG W (Proc.devRef .tc main_v62) = val_main_v62 (F := F) x0 x1 x2 x3
    ∧ after opsG W (Proc.devRef .tc main_v53) = val_main_v53 (F := F) x0 x1 x2
    ∧ after opsG W (Proc.devRef .tc main_v56) = val_main_v56 (F := F) x0 x1 x2 x3 := by
  refine ⟨?_, ?_, ?_⟩ <;> after_results_simp <;> simp only [TRef.ofBuf, TRef.toBuf, cast_eq, h24, h46, ha1] <;> rfl

/-- The whole line from any contents: the three result buffers end at the stages of the argument buffers' contents. -/
theorem after_ops (W : Valuation τ sig (Elt F)) :
    after ops W (Proc.devRef .tc main_v62) = val_main_v62 (F := F) (W (Proc.devRef .tc main_arg0)) (W (Proc.devRef .tc main_arg1)) (W (Proc.devRef .tc main_arg2)) (W (Proc.devRef .tc main_arg3))
    ∧ after ops W (Proc.devRef .tc main_v53) = val_main_v53 (F := F) (W (Proc.devRef .tc main_arg0)) (W (Proc.devRef .tc main_arg1)) (W (Proc.devRef .tc main_arg2))
    ∧ after ops W (Proc.devRef .tc main_v56) = val_main_v56 (F := F) (W (Proc.devRef .tc main_arg0)) (W (Proc.devRef .tc main_arg1)) (W (Proc.devRef .tc main_arg2)) (W (Proc.devRef .tc main_arg3)) := by
  rw [ops_eq, after_app, after_app, after_app, after_app, after_app]
  obtain ⟨a1, a3, a5, a6⟩ := stageA W
  obtain ⟨ka1, ka3⟩ := keepA W
  obtain ⟨kb1, kb3, kb5, kba1, kba3⟩ := keepB (after opsA W)
  have b7 := stageB (after opsA W) _ _ _ a1 a6
  obtain ⟨kc1, kc3, kc5, kca1, kca3⟩ := keepC (after opsB (after opsA W))
  have c24 := stageC (after opsB (after opsA W)) _ _ _ b7 (kb3.trans a3) (kb5.trans a5) (kba1.trans ka1)
  obtain ⟨kd3, kd5, kd24, kda1, kda3⟩ := keepD (after opsC (after opsB (after opsA W)))
  have d25 := stageD (after opsC (after opsB (after opsA W))) _ _ _ (kc1.trans (kb1.trans a1)) (kca3.trans (kba3.trans ka3))
  obtain ⟨ke24, kea1⟩ := keepE (after opsD (after opsC (after opsB (after opsA W))))
  have e46 := stageE (after opsD (after opsC (after opsB (after opsA W)))) _ _ _ d25 (kd3.trans (kc3.trans (kb3.trans a3)))
    (kd5.trans (kc5.trans (kb5.trans a5))) (kda3.trans (kca3.trans (kba3.trans ka3)))
  exact stageG (after opsE (after opsD (after opsC (after opsB (after opsA W))))) _ _ _ _
    (ke24.trans (kd24.trans c24)) e46 (kea1.trans (kda1.trans (kca1.trans (kba1.trans ka1))))

/-- No operation of the line writes an argument buffer. -/
theorem after_ops_args (W : Valuation τ sig (Elt F)) :
    after ops W (Proc.devRef .tc main_arg0) = W (Proc.devRef .tc main_arg0)
    ∧ after ops W (Proc.devRef .tc main_arg1) = W (Proc.devRef .tc main_arg1)
    ∧ after ops W (Proc.devRef .tc main_arg2) = W (Proc.devRef .tc main_arg2)
    ∧ after ops W (Proc.devRef .tc main_arg3) = W (Proc.devRef .tc main_arg3) := by
  refine ⟨?_, ?_, ?_, ?_⟩ <;> after_results_simp

/-- On every device, from any memory with zero counters: every weakly fair execution of the reference's @main
    terminates with the three result buffers at the stage functions of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = val_main_v62 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v53) = val_main_v53 (F := F) (m ((c.tc : Thread nD τ).loc main_arg0)) (m ((c.tc : Thread nD τ).loc main_arg1)) (m ((c.tc : Thread nD τ).loc main_arg2))
      ∧ r.2.mem ((c.tc : Thread nD τ).loc main_v56) = val_main_v56 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v62).trans (after_ops (launchContents m c)).1,
        (h c main_v53).trans (after_ops (launchContents m c)).2.1,
        (h c main_v56).trans (after_ops (launchContents m c)).2.2,
        (h c main_arg0).trans (after_ops_args (launchContents m c)).1,
        (h c main_arg1).trans (after_ops_args (launchContents m c)).2.1,
        (h c main_arg2).trans (after_ops_args (launchContents m c)).2.2.1,
        (h c main_arg3).trans (after_ops_args (launchContents m c)).2.2.2⟩)
    (run_seq scopedRefs_eq scopedSems_eq defs main (fun _ => ops) main_eq (fun _ => ops_sub) m ρ)

end Cert.ReferenceIdeal.HandRun

end
-- ==== Proof.LibTakeAlong.lean ====
/-
  A gather along the class axis (jnp.take_along_axis on axis 1) read at one element.

  The operand is an R × C array, the start indices an R × 1 × 1 array of position words, the result an R × 1 column.
  Axis 0 is a batching axis of both (row b of the result reads row b of the operand with the word at (b, 0, 0));
  axis 1 of the operand is collapsed and is the one axis the start index map names. So the result at (b, 0) is the
  operand at row b and at the column the word names, read signed and clamped into [0, C − 1].
-/
import Idealize.ShloMosaic.PureOps.ShapeOps
import Idealize.ShloMosaic.PureOps.Dims
import Idealize.ShloMosaic.Lib.ValueIdx

noncomputable section

namespace Cert.LibTakeAlong

open Idealize.ShloMosaic Idealize.ShloMosaic.ValueIdx

/-- Entries of an R × C array gathered along axis 1 at R position words: result (b, 0) is the array at row b and at
    the clamped position of word (b, 0, 0). -/
theorem takeAlong_apply {α : Type} {R C w : Nat} (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, 1, 1]⟩ w) (b : Fin R) (hC : 0 < C) :
    Host.gather d x idx (ix2 b (0 : Fin 1))
      = x (ix2 b (⟨min (idx (ix3 b (0 : Fin 1) (0 : Fin 1))).toInt.toNat (C - 1), by omega⟩ : Fin C)) := by
  obtain ⟨od, cd, obd, sbd, sim, ivd, ss, wf⟩ := d
  simp only at hoff hcoll hob hsb hsim hivd
  subst hoff hcoll hob hsb hsim hivd
  generalize hd : (GatherDims.mk [] [1] [0] [0] [1] 2 ss wf : GatherDims ⟨2, ![R, C]⟩ ⟨3, ![R, 1, 1]⟩ ⟨2, ![R, 1]⟩) = d
  have hcoll : d.collapsedSliceDims = [1] := by subst hd; rfl
  have hob : d.operandBatchingDims = [0] := by subst hd; rfl
  have hsim : d.startIndexMap = [1] := by subst hd; rfl
  have h01 : ¬ ((0 : Fin 2) = 1) := by decide
  have h10 : ¬ ((1 : Fin 2) = 0) := by decide
  have m0 : (0 : Fin 2) ∈ d.operandBatchingDims := by rw [hob]; exact List.mem_singleton.mpr rfl
  have n1 : (1 : Fin 2) ∉ d.operandBatchingDims := by rw [hob]; exact fun h => h10 (List.mem_singleton.mp h)
  have c1 : (1 : Fin 2) ∈ d.collapsedSliceDims := by rw [hcoll]; exact List.mem_singleton.mpr rfl
  have s1 : (1 : Fin 2) ∈ d.startIndexMap := by rw [hsim]; exact List.mem_singleton.mpr rfl
  have k0 : (0 : Fin 2) ∉ d.sKept := fun h => ((GatherDims.mem_sKept _ _).mp h).2 m0
  have k1 : (1 : Fin 2) ∉ d.sKept := fun h => ((GatherDims.mem_sKept _ _).mp h).1 c1
  have h0 : (d.operandIdx (ix2 b (0 : Fin 1)) idx (0 : Fin 2)).val = b.val := by
    show d.start (ix2 b (0 : Fin 1)) idx (0 : Fin 2) + d.batchCoord (ix2 b (0 : Fin 1)) (0 : Fin 2) + d.offCoord (ix2 b (0 : Fin 1)) (0 : Fin 2) = _
    rw [GatherDims.start_batching _ _ _ _ m0, GatherDims.offCoord_eq_zero _ _ _ k0, Nat.zero_add, Nat.add_zero]
    unfold GatherDims.batchCoord
    rw [dif_pos m0]
    subst hd
    rfl
  have h1 : (d.operandIdx (ix2 b (0 : Fin 1)) idx (1 : Fin 2)).val = min (idx (ix3 b (0 : Fin 1) (0 : Fin 1))).toInt.toNat (C - 1) := by
    show d.start (ix2 b (0 : Fin 1)) idx (1 : Fin 2) + d.batchCoord (ix2 b (0 : Fin 1)) (1 : Fin 2) + d.offCoord (ix2 b (0 : Fin 1)) (1 : Fin 2) = _
    rw [GatherDims.batchCoord_eq_zero _ _ _ n1, GatherDims.offCoord_eq_zero _ _ _ k1, Nat.add_zero]
    unfold GatherDims.start
    rw [dif_pos s1, d.slice_collapsed 1 c1]
    have hsi : d.siIdx (ix2 b (0 : Fin 1)) ⟨List.idxOf (1 : Fin 2) d.startIndexMap, List.idxOf_lt_length_iff.2 s1⟩
        = ix3 b (0 : Fin 1) (0 : Fin 1) := by
      subst hd
      funext a
      refine Fin.ext ?_
      match a with
      | ⟨0, _⟩ => rfl
      | ⟨1, _⟩ => rfl
      | ⟨2, _⟩ => rfl
    rw [hsi]
    rfl
  unfold Host.gather
  congr 1
  funext a
  match a with
  | ⟨0, _⟩ => exact Fin.ext h0
  | ⟨1, _⟩ => exact Fin.ext h1

end Cert.LibTakeAlong

end
-- ==== Proof.LibGatherRows.lean ====
/-
  A gather of whole rows of a table, and of entries of a vector, read at one element. The start indices are an
  n × 1 column of position words; result row e is the table's row at position word e read signed and clipped into the
  table (a negative word reads row 0, one past the end reads the last row).
-/
import Idealize.ShloMosaic.PureOps.ShapeOps
import Idealize.ShloMosaic.PureOps.Dims
import Idealize.ShloMosaic.Lib.ValueIdx
import Idealize.ShloMosaic.Lib.StableHlo.Predicate

noncomputable section

namespace Cert.LibGatherRows

open Idealize.ShloMosaic Idealize.ShloMosaic.ValueIdx

/-- Rows of an N × D table gathered at n position words: result (e, k) is the table at the clipped position of word e and column k. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  have h0 : (d.operandIdx (ix2 e k) idx (0 : Fin 2)).val = min (idx (ix2 e (0 : Fin 1))).toInt.toNat (N - 1) := by
    show d.start (ix2 e k) idx (0 : Fin 2) + d.batchCoord (ix2 e k) (0 : Fin 2) + d.offCoord (ix2 e k) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e (0 : Fin 1) := by
      subst hd
      funext b; refine Fin.ext ?_
      match b with
      | ⟨0, _⟩ => rfl
      | ⟨1, _⟩ => rfl
    rw [hsi]
    rfl
  have h1 : (d.operandIdx (ix2 e k) idx (1 : Fin 2)).val = k.val := by
    show d.start (ix2 e k) idx (1 : Fin 2) + d.batchCoord (ix2 e k) (1 : Fin 2) + d.offCoord (ix2 e k) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-- Entries of an N-vector gathered at n position words: result e is the vector at the clipped position of word e. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.LibTakeAlong8.lean ====
/-
  Two gathers whose start indices are an R × K × 1 array of position words, read at one element.

  Along the class axis (K entries taken from each row, along axis 1): the operand is an R × C array, the
  result R × K. Axis 0 is a batching axis of operand and start indices (row b of the result reads row b of the
  operand), axis 1 of the operand is collapsed and is the one axis the start index map names, and the index vector
  lies on the last (size one) axis of the start indices. So the result at (b, k) is the operand at row b and at the
  column the word at (b, k, 0) names, read signed and clamped into [0, C − 1].

  Out of a vector (entry v[p] for each of R × K positions p): the operand is an N-vector, its one axis collapsed and
  named by the start index map, no batching axes. The result at (b, k) is the vector at the position the word at
  (b, k, 0) names, read signed and clamped into [0, N − 1].
-/
import Idealize.ShloMosaic.PureOps.ShapeOps
import Idealize.ShloMosaic.PureOps.Dims
import Idealize.ShloMosaic.Lib.ValueIdx

noncomputable section

namespace Cert.LibTakeAlong8

open Idealize.ShloMosaic Idealize.ShloMosaic.ValueIdx

/-- Entries of an R × C array gathered along axis 1 at R × K position words: result (b, k) is the array at row b and at
    the clamped position of word (b, k, 0). -/
theorem takeAlongK_apply {α : Type} {R K C w : Nat} (d : GatherDims ⟨2, ![R, C]⟩ ⟨3, ![R, K, 1]⟩ ⟨2, ![R, K]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, K, 1]⟩ w) (b : Fin R) (k : Fin K) (hC : 0 < C) :
    Host.gather d x idx (ix2 b k)
      = x (ix2 b (⟨min (idx (ix3 b k (0 : Fin 1))).toInt.toNat (C - 1), by omega⟩ : Fin C)) := by
  obtain ⟨od, cd, obd, sbd, sim, ivd, ss, wf⟩ := d
  simp only at hoff hcoll hob hsb hsim hivd
  subst hoff hcoll hob hsb hsim hivd
  generalize hd : (GatherDims.mk [] [1] [0] [0] [1] 2 ss wf : GatherDims ⟨2, ![R, C]⟩ ⟨3, ![R, K, 1]⟩ ⟨2, ![R, K]⟩) = d
  have hcoll : d.collapsedSliceDims = [1] := by subst hd; rfl
  have hob : d.operandBatchingDims = [0] := by subst hd; rfl
  have hsim : d.startIndexMap = [1] := by subst hd; rfl
  have h10 : ¬ ((1 : Fin 2) = 0) := by decide
  have m0 : (0 : Fin 2) ∈ d.operandBatchingDims := by rw [hob]; exact List.mem_singleton.mpr rfl
  have n1 : (1 : Fin 2) ∉ d.operandBatchingDims := by rw [hob]; exact fun h => h10 (List.mem_singleton.mp h)
  have c1 : (1 : Fin 2) ∈ d.collapsedSliceDims := by rw [hcoll]; exact List.mem_singleton.mpr rfl
  have s1 : (1 : Fin 2) ∈ d.startIndexMap := by rw [hsim]; exact List.mem_singleton.mpr rfl
  have k0 : (0 : Fin 2) ∉ d.sKept := fun h => ((GatherDims.mem_sKept _ _).mp h).2 m0
  have k1 : (1 : Fin 2) ∉ d.sKept := fun h => ((GatherDims.mem_sKept _ _).mp h).1 c1
  -- the row: a batching axis, read off the result's row
  have h0 : (d.operandIdx (ix2 b k) idx (0 : Fin 2)).val = b.val := by
    show d.start (ix2 b k) idx (0 : Fin 2) + d.batchCoord (ix2 b k) (0 : Fin 2) + d.offCoord (ix2 b k) (0 : Fin 2) = _
    rw [GatherDims.start_batching _ _ _ _ m0, GatherDims.offCoord_eq_zero _ _ _ k0, Nat.zero_add, Nat.add_zero]
    unfold GatherDims.batchCoord
    rw [dif_pos m0]
    subst hd
    rfl
  -- the column: the clamped start index, read at (b, k, 0)
  have h1 : (d.operandIdx (ix2 b k) idx (1 : Fin 2)).val = min (idx (ix3 b k (0 : Fin 1))).toInt.toNat (C - 1) := by
    show d.start (ix2 b k) idx (1 : Fin 2) + d.batchCoord (ix2 b k) (1 : Fin 2) + d.offCoord (ix2 b k) (1 : Fin 2) = _
    rw [GatherDims.batchCoord_eq_zero _ _ _ n1, GatherDims.offCoord_eq_zero _ _ _ k1, Nat.add_zero]
    unfold GatherDims.start
    rw [dif_pos s1, d.slice_collapsed 1 c1]
    have hsi : d.siIdx (ix2 b k) ⟨List.idxOf (1 : Fin 2) d.startIndexMap, List.idxOf_lt_length_iff.2 s1⟩
        = ix3 b k (0 : Fin 1) := by
      subst hd
      funext a
      refine Fin.ext ?_
      match a with
      | ⟨0, _⟩ => rfl
      | ⟨1, _⟩ => rfl
      | ⟨2, _⟩ => rfl
    rw [hsi]
    rfl
  unfold Host.gather
  congr 1
  funext a
  match a with
  | ⟨0, _⟩ => exact Fin.ext h0
  | ⟨1, _⟩ => exact Fin.ext h1

/-- Entries of an N-vector gathered at R × K position words: result (b, k) is the vector at the clamped position of
    word (b, k, 0). -/
theorem gatherVecK_apply {α : Type} {N R K w : Nat} (d : GatherDims ⟨1, ![N]⟩ ⟨3, ![R, K, 1]⟩ ⟨2, ![R, K]⟩)
    (hoff : d.offsetDims = []) (hcoll : d.collapsedSliceDims = [0]) (hob : d.operandBatchingDims = [])
    (hsb : d.startIndicesBatchingDims = []) (hsim : d.startIndexMap = [0]) (hivd : d.indexVectorDim = 2)
    (x : (⟨1, ![N]⟩ : Shape).Idx → α) (idx : IVec ⟨3, ![R, K, 1]⟩ w) (b : Fin R) (k : Fin K) (hN : 0 < N) :
    Host.gather d x idx (ix2 b k)
      = x (ix1 (⟨min (idx (ix3 b k (0 : Fin 1))).toInt.toNat (N - 1), by omega⟩ : Fin N)) := by
  obtain ⟨od, cd, obd, sbd, sim, ivd, ss, wf⟩ := d
  simp only at hoff hcoll hob hsb hsim hivd
  subst hoff hcoll hob hsb hsim hivd
  generalize hd : (GatherDims.mk [] [0] [] [] [0] 2 ss wf : GatherDims ⟨1, ![N]⟩ ⟨3, ![R, K, 1]⟩ ⟨2, ![R, K]⟩) = d
  have hcoll : d.collapsedSliceDims = [0] := by subst hd; rfl
  have hob : d.operandBatchingDims = [] := by subst hd; rfl
  have hsim : d.startIndexMap = [0] := by subst hd; rfl
  have nb : (0 : Fin 1) ∉ d.operandBatchingDims := by rw [hob]; exact List.not_mem_nil
  have c0 : (0 : Fin 1) ∈ d.collapsedSliceDims := by rw [hcoll]; exact List.mem_singleton.mpr rfl
  have s0 : (0 : Fin 1) ∈ d.startIndexMap := by rw [hsim]; exact List.mem_singleton.mpr rfl
  have k0 : (0 : Fin 1) ∉ d.sKept := fun h => ((GatherDims.mem_sKept _ _).mp h).1 c0
  have h0 : (d.operandIdx (ix2 b k) idx (0 : Fin 1)).val = min (idx (ix3 b k (0 : Fin 1))).toInt.toNat (N - 1) := by
    show d.start (ix2 b k) idx (0 : Fin 1) + d.batchCoord (ix2 b k) (0 : Fin 1) + d.offCoord (ix2 b k) (0 : Fin 1) = _
    rw [GatherDims.batchCoord_eq_zero _ _ _ nb, GatherDims.offCoord_eq_zero _ _ _ k0, Nat.add_zero]
    unfold GatherDims.start
    rw [dif_pos s0, d.slice_collapsed 0 c0]
    have hsi : d.siIdx (ix2 b k) ⟨List.idxOf (0 : Fin 1) d.startIndexMap, List.idxOf_lt_length_iff.2 s0⟩
        = ix3 b k (0 : Fin 1) := by
      subst hd
      funext a
      refine Fin.ext ?_
      match a with
      | ⟨0, _⟩ => rfl
      | ⟨1, _⟩ => rfl
      | ⟨2, _⟩ => rfl
    rw [hsi]
    rfl
  unfold Host.gather
  congr 1
  funext a
  match a with
  | ⟨0, _⟩ => exact Fin.ext h0

end Cert.LibTakeAlong8

end
-- ==== Proof.RefSide.lean ====
/-
  The reference program's three results, as the specification's functions of the four argument arrays.

  Read one row r at a time. The row sums of squares are |x_r|² and |a_l|² (a sum from the word 0.0, which denotes 0),
  the product with the transposed table is x_r · a_l. A position word w below 200 is not negative, so the
  "add 200 to a negative index" selection keeps it, the range test 0 ≤ w ≤ 199 holds (the not-a-number fill is not
  taken), and the clamped position min(w, 199) is w itself: the anchor the specification calls anchorOf w. So the
  gathered product, the gathered anchor norm and hence the distance are the specification's, for the label's
  anchor and for each of the eight negative anchors. The division of the eight distances' sum by 8.0 is the
  product with 0.125. Where the label is the ignore value 255 the selection on "label ≠ 255" returns 0.0 whatever
  the distance is. The scalar loss is, operation for operation, the specification's total of the two per-row losses.
-/
import proofs.«418721_j84713934946579_2_alg».proof.Proof.RefStages
import proofs.«418721_j84713934946579_2_alg».proof.Proof.Spec
import proofs.«418721_j84713934946579_2_alg».proof.Proof.LibTakeAlong
import proofs.«418721_j84713934946579_2_alg».proof.Proof.LibGatherRows
import proofs.«418721_j84713934946579_2_alg».proof.Proof.LibTakeAlong8
import Idealize.ShloMosaic.Lib.Affine
import Idealize.ShloMosaic.PureOps.Reduce
import Idealize.ShloMosaic.PureOps.Ideal.Laws

noncomputable section

namespace Cert.RefSide

open Cert.ReferenceIdeal Cert.ReferenceIdeal.Stages Cert.Contrast Idealize.ShloMosaic Idealize.ShloMosaic.ValueIdx
open Facts₀
open scoped BigOperators

/-! ## Words -/

/-- A word below 200 is not negative: the selection "negative ↦ word + 200" keeps it. -/
theorem norm_word {w : BitVec 32} (h : w.toNat < 200) :
    Scalar.select (IntOp.cmpi .slt w 0#32) (IntOp.addi w 200#32) w = w := by
  have hi : w.toInt = w.toNat := BitVec.toInt_eq_toNat_of_lt (by omega)
  have hn : ¬ IntOp.cmpi .slt w 0#32 = 1#1 := by
    rw [IntOp.cmpi_slt, hi, show (0#32 : BitVec 32).toInt = 0 from by decide]; omega
  unfold Scalar.select
  exact if_neg hn

/-- A word below 200 passes the range test 0 ≤ w ≤ 199. -/
theorem in_range {w : BitVec 32} (h : w.toNat < 200) :
    IntOp.andi (IntOp.cmpi .sge w 0#32) (IntOp.cmpi .sle w 199#32) = 1#1 := by
  have hi : w.toInt = w.toNat := BitVec.toInt_eq_toNat_of_lt (by omega)
  rw [IntOp.andi_eq_one, IntOp.cmpi_sge, IntOp.cmpi_sle, hi, show (0#32 : BitVec 32).toInt = 0 from by decide,
    show (199#32 : BitVec 32).toInt = 199 from by decide]
  omega

/-- The selection on "w ≠ 255": the second value exactly when w = 255. -/
theorem where_ne {α : Type} (w : BitVec 32) (a b : α) :
    Scalar.select (IntOp.cmpi .ne w 255#32) a b = if w = 255#32 then b else a := by
  unfold Scalar.select
  by_cases h : w = 255#32
  · rw [if_pos h]
    exact if_neg (fun h' => IntOp.cmpi_ne.1 h' h)
  · rw [if_neg h]
    exact if_pos (IntOp.cmpi_ne.2 h)

/-- The selection on a set bit takes the first value. -/
theorem select_one {α : Type} (a b : α) : Scalar.select 1#1 a b = a := by
  unfold Scalar.select
  exact if_pos rfl

/-- An and-reduction from 1 whose every contributing element is 1 is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  have key : ∀ (l : List s.Idx) (acc : BitVec 1), acc = 1#1 → (∀ i ∈ l, x i = 1#1) →
      l.foldl (fun r i => IntOp.andi r (x i)) acc = 1#1 := by
    intro l
    induction l with
    | nil => intro acc ha _; exact ha
    | cons a l ih =>
      intro acc ha hl
      refine ih _ ?_ (fun i hi => hl i (List.mem_cons_of_mem _ hi))
      show IntOp.andi acc (x a) = 1#1
      rw [ha, hl a List.mem_cons_self]
      rfl
  refine key _ _ hinit (fun i hi => hx i ?_)
  have hm := (List.mem_filter.1 hi).2
  simpa using hm

/-! ## The float words 8.0 and 0.125 -/

theorem eight_eq : eight = ((8 : ℝ) : EReal) := by
  simp [eight, Ideal.ofBits, Ideal.ieee, -EReal.coe_mul]; norm_num

theorem eighth_eq : eighth = ((1 / 8 : ℝ) : EReal) := by
  simp [eighth, Ideal.ofBits, Ideal.ieee, -EReal.coe_mul]; norm_num

/-- Dividing by the word 8.0 is multiplying by the word 0.125. -/
theorem div_eight (x : EReal) : Ideal.div x eight = x * eighth := by
  rw [eight_eq, eighth_eq]; exact Ideal.div_coe (by norm_num) x

variable (X : (⟨S262144x512, .f32⟩ : BufTy).Contents (Elt Ideal)) (Lb : (⟨S262144, .i32⟩ : BufTy).Contents (Elt Ideal))
  (A : (⟨S200x512, .f32⟩ : BufTy).Contents (Elt Ideal)) (Ng : (⟨S262144x8, .i32⟩ : BufTy).Contents (Elt Ideal))

/-! ## The three sums -/

/-- Row r of the squared features sums to |x_r|². -/
theorem v3_eq (r : Fin 262144) : val_main_v3 (F := Ideal) X (ix1 r) = sqX X r := by
  rw [val_main_v3_apply, val_main_cst_apply, Ideal.ofBits_def, Ideal.ofBits_zero_f32, zero_add]
  unfold sqX
  refine Finset.sum_congr rfl fun k _ => ?_
  rw [val_main_v2_apply, Ideal.mulf_def]
  have e : idx_main_v3 (ix1 r) k = ix2 r k := by
    funext a; match a with | ⟨0, _⟩ => rfl | ⟨1, _⟩ => rfl
  rw [e]

/-- Row l of the squared anchors sums to |a_l|². -/
theorem v5_eq (l : Fin 200) : val_main_v5 (F := Ideal) A (ix1 l) = sqA A l := by
  rw [val_main_v5_apply, val_main_cst_0_apply, Ideal.ofBits_def, Ideal.ofBits_zero_f32, zero_add]
  unfold sqA
  refine Finset.sum_congr rfl fun k _ => ?_
  rw [val_main_v4_apply, Ideal.mulf_def]
  have e : idx_main_v5 (ix1 l) k = ix2 l k := by
    funext a; match a with | ⟨0, _⟩ => rfl | ⟨1, _⟩ => rfl
  rw [e]

/-- Entry (r, l) of the product with the transposed table is x_r · a_l. -/
theorem v1_eq (r : Fin 262144) (l : Fin 200) : val_main_v1 (F := Ideal) X A (ix2 r l) = dotXA X A r l := by
  rw [val_main_v1_apply]
  unfold dotXA
  refine Finset.sum_congr rfl fun k _ => ?_
  rw [val_main_v0_apply]
  have e1 : lidx_main_v1 (ix2 r l) k = ix2 r k := by
    funext a; match a with | ⟨0, _⟩ => rfl | ⟨1, _⟩ => rfl
  have e2 : idx_main_v0 (ridx_main_v1 (ix2 r l) k) = ix2 l k := by
    funext a; match a with | ⟨0, _⟩ => rfl | ⟨1, _⟩ => rfl
  rw [e1, e2]

/-! ## The positive term -/

theorem v6_eq (r : Fin 262144) : val_main_v6 (F := Ideal) Lb (ix2 r (0 : Fin 1)) = Lb (ix1 r) := by
  rw [val_main_v6_apply]
  exact congrArg Lb (by funext a; match a with | ⟨0, _⟩ => rfl)

/-- The position word handed to the first gather is the label itself. -/
theorem call0_v5_eq (r : Fin 262144) (h : (Lb (ix1 r)).toNat < 200) :
    val_main_call0_v5 (F := Ideal) Lb (ix3 r (0 : Fin 1) (0 : Fin 1)) = Lb (ix1 r) := by
  rw [val_main_call0_v5_apply]
  have e : idx_main_call0_v5 (ix3 r (0 : Fin 1) (0 : Fin 1)) = ix2 r (0 : Fin 1) := by
    funext a; match a with
    | ⟨0, _⟩ => exact Fin.ext (by show ((r.val * 1 + 0) * 1 + 0) / 1 = r.val; omega)
    | ⟨1, _⟩ => rfl
  rw [e, val_main_call0_v4_apply, val_main_call0_v1_apply, val_main_call0_v3_apply, val_main_call0_v0_apply,
    val_main_call0_v2_apply, val_main_call0_c_apply, val_main_call0_c_0_apply, v6_eq]
  exact norm_word h

/-- The label's range test passes. -/
theorem call0_v12_eq (r : Fin 262144) (h : (Lb (ix1 r)).toNat < 200) :
    val_main_call0_v12 (F := Ideal) Lb (ix2 r (0 : Fin 1)) = 1#1 := by
  unfold val_main_call0_v12
  refine reduce_andi_one _ _ _ _ _ rfl (fun i hi => ?_)
  have hi0 : i 0 = r := by
    have hv := Shape.ReducesTo.drop_apply_val_of_eq reducesTo_S262144x1x1_S262144x1_d2 i 0 0
    rw [hi] at hv
    exact Fin.ext hv.symm
  have hi' : i = ix3 r (0 : Fin 1) (0 : Fin 1) := by
    funext a; match a with
    | ⟨0, _⟩ => exact hi0
    | ⟨1, _⟩ => exact Fin.ext (by have h1 : (i 1).val < 1 := (i 1).isLt; show (i 1).val = 0; omega)
    | ⟨2, _⟩ => exact Fin.ext (by have h2 : (i 2).val < 1 := (i 2).isLt; show (i 2).val = 0; omega)
  rw [hi', val_main_call0_v11_apply, val_main_call0_v7_apply, val_main_call0_v10_apply, val_main_call0_v6_apply,
    val_main_call0_v9_apply, val_main_call0_v8_apply, val_main_call0_c_2_apply, val_main_call0_c_1_apply,
    call0_v5_eq Lb r h]
  exact in_range h

/-- The product gathered at the label is x_r · a at the label's anchor. -/
theorem v8_eq (r : Fin 262144) (h : (Lb (ix1 r)).toNat < 200) :
    val_main_v8 (F := Ideal) X Lb A (ix1 r) = dotXA X A r (anchorOf (Lb (ix1 r))) := by
  rw [val_main_v8_apply]
  have e : idx_main_v8 (ix1 r) = ix2 r (0 : Fin 1) := by
    funext a; match a with
    | ⟨0, _⟩ => exact Fin.ext (Nat.div_one _)
    | ⟨1, _⟩ => rfl
  rw [e, val_main_v7_apply, call0_v12_eq Lb r h, select_one]
  unfold val_main_call0_v13
  rw [Cert.LibTakeAlong.takeAlong_apply _ rfl rfl rfl rfl rfl rfl _ _ r (by decide), v1_eq]
  simp only [call0_v5_eq Lb r h]
  rfl

/-- The anchor norm gathered at the label is |a|² at the label's anchor. -/
theorem v18_eq (r : Fin 262144) (h : (Lb (ix1 r)).toNat < 200) :
    val_main_v18 (F := Ideal) Lb A (ix1 r) = sqA A (anchorOf (Lb (ix1 r))) := by
  unfold val_main_v18
  rw [Cert.LibGatherRows.gather_vec_apply _ rfl rfl rfl rfl _ _ r (by decide), v5_eq]
  have e : val_main_v17 (F := Ideal) Lb (ix2 r (0 : Fin 1)) = Lb (ix1 r) := by
    rw [val_main_v17_apply]
    have e' : idx_main_v17 (ix2 r (0 : Fin 1)) = ix1 r := by
      funext a; match a with | ⟨0, _⟩ => rfl
    rw [e', val_main_v16_apply, val_main_v13_apply, val_main_v15_apply, val_main_v12_apply, val_main_v14_apply,
      val_main_c_apply, val_main_c_2_apply]
    exact norm_word h
  simp only [e]
  rfl

/-- The positive distance of row r is the distance to the label's anchor. -/
theorem v24_eq (r : Fin 262144) (h : (Lb (ix1 r)).toNat < 200) :
    val_main_v24 (F := Ideal) X Lb A (ix1 r) = dist X A r (anchorOf (Lb (ix1 r))) := by
  rw [val_main_v24_apply, val_main_v23_apply, val_main_v21_apply, val_main_v19_apply, val_main_v11_apply,
    val_main_v10_apply, val_main_v9_apply, val_main_cst_1_apply, val_main_v20_apply, val_main_cst_3_apply,
    val_main_v22_apply, val_main_cst_4_apply, v3_eq, v8_eq X Lb A r h, v18_eq Lb A r h]
  rfl

/-- THE POSITIVE LOSS. -/
theorem pos_eq (hL : LabelsOk Lb) : val_main_v53 (F := Ideal) X Lb A = posLoss X Lb A := by
  funext i
  obtain ⟨r, rfl⟩ : ∃ r : Fin 262144, i = ix1 r := ⟨i 0, eq_ix1 i⟩
  rw [val_main_v53_apply, val_main_v52_apply, val_main_v49_apply, val_main_v48_apply, val_main_v47_apply,
    val_main_c_12_apply, val_main_call2_v1_apply, val_main_call2_v0_apply, val_main_cst_13_apply, val_main_v51_apply,
    val_main_cst_15_apply, val_main_call4_v0_apply, val_main_call4_cst_apply, where_ne]
  unfold posLoss
  by_cases h255 : Lb (ix1 r) = 255#32
  · rw [if_pos h255, if_pos h255]; rfl
  · have hlt : (Lb (ix1 r)).toNat < 200 := (hL (ix1 r)).resolve_left h255
    rw [if_neg h255, if_neg h255, v24_eq X Lb A r hlt]; rfl

/-! ## The negative term -/

/-- The position word handed to the second gather at (r, k) is the negative index itself. -/
theorem call1_v5_eq (r : Fin 262144) (k : Fin 8) (h : (Ng (ix2 r k)).toNat < 200) :
    val_main_call1_v5 (F := Ideal) Ng (ix3 r k (0 : Fin 1)) = Ng (ix2 r k) := by
  rw [val_main_call1_v5_apply]
  have e : idx_main_call1_v5 (ix3 r k (0 : Fin 1)) = ix2 r k := by
    funext a; match a with
    | ⟨0, _⟩ => exact Fin.ext (by have := k.isLt; show ((r.val * 8 + k.val) * 1 + 0) / 8 = r.val; omega)
    | ⟨1, _⟩ => exact Fin.ext (by have := k.isLt; show ((r.val * 8 + k.val) * 1 + 0) % 8 = k.val; omega)
  rw [e, val_main_call1_v4_apply, val_main_call1_v1_apply, val_main_call1_v3_apply, val_main_call1_v0_apply,
    val_main_call1_v2_apply, val_main_call1_c_apply, val_main_call1_c_0_apply]
  exact norm_word h

/-- The negative index's range test passes. -/
theorem call1_v12_eq (r : Fin 262144) (k : Fin 8) (h : (Ng (ix2 r k)).toNat < 200) :
    val_main_call1_v12 (F := Ideal) Ng (ix2 r k) = 1#1 := by
  unfold val_main_call1_v12
  refine reduce_andi_one _ _ _ _ _ rfl (fun i hi => ?_)
  have hi0 : i 0 = r := by
    have hv := Shape.ReducesTo.drop_apply_val_of_eq reducesTo_S262144x8x1_S262144x8_d2 i 0 0
    rw [hi] at hv
    exact Fin.ext hv.symm
  have hi1 : i 1 = k := by
    have hv := Shape.ReducesTo.drop_apply_val_of_eq reducesTo_S262144x8x1_S262144x8_d2 i 1 1
    rw [hi] at hv
    exact Fin.ext hv.symm
  have hi' : i = ix3 r k (0 : Fin 1) := by
    funext a; match a with
    | ⟨0, _⟩ => exact hi0
    | ⟨1, _⟩ => exact hi1
    | ⟨2, _⟩ => exact Fin.ext (by have h2 : (i 2).val < 1 := (i 2).isLt; show (i 2).val = 0; omega)
  rw [hi', val_main_call1_v11_apply, val_main_call1_v7_apply, val_main_call1_v10_apply, val_main_call1_v6_apply,
    val_main_call1_v9_apply, val_main_call1_v8_apply, val_main_call1_c_2_apply, val_main_call1_c_1_apply,
    call1_v5_eq Ng r k h]
  exact in_range h

/-- The product gathered at negative index (r, k) is x_r · a at that index's anchor. -/
theorem v25_eq (r : Fin 262144) (k : Fin 8) (h : (Ng (ix2 r k)).toNat < 200) :
    val_main_v25 (F := Ideal) X A Ng (ix2 r k) = dotXA X A r (anchorOf (Ng (ix2 r k))) := by
  rw [val_main_v25_apply, call1_v12_eq Ng r k h, select_one]
  unfold val_main_call1_v13
  rw [Cert.LibTakeAlong8.takeAlongK_apply _ rfl rfl rfl rfl rfl rfl _ _ r k (by decide), v1_eq]
  simp only [call1_v5_eq Ng r k h]
  rfl

/-- The anchor norm gathered at negative index (r, k) is |a|² at that index's anchor. -/
theorem v37_eq (r : Fin 262144) (k : Fin 8) (h : (Ng (ix2 r k)).toNat < 200) :
    val_main_v37 (F := Ideal) A Ng (ix2 r k) = sqA A (anchorOf (Ng (ix2 r k))) := by
  unfold val_main_v37
  rw [Cert.LibTakeAlong8.gatherVecK_apply _ rfl rfl rfl rfl rfl rfl _ _ r k (by decide), v5_eq]
  have e : val_main_v36 (F := Ideal) Ng (ix3 r k (0 : Fin 1)) = Ng (ix2 r k) := by
    rw [val_main_v36_apply]
    have e' : idx_main_v36 (ix3 r k (0 : Fin 1)) = ix2 r k := by
      funext a; match a with | ⟨0, _⟩ => rfl | ⟨1, _⟩ => rfl
    rw [e', val_main_v35_apply, val_main_v32_apply, val_main_v34_apply, val_main_v31_apply, val_main_v33_apply,
      val_main_c_6_apply, val_main_c_7_apply]
    exact norm_word h
  simp only [e]
  rfl

/-- The (r, k) negative distance is the distance to that index's anchor. -/
theorem v43_eq (r : Fin 262144) (k : Fin 8) (h : (Ng (ix2 r k)).toNat < 200) :
    val_main_v43 (F := Ideal) X A Ng (ix2 r k) = dist X A r (anchorOf (Ng (ix2 r k))) := by
  have e29 : val_main_v29 (F := Ideal) X (ix2 r k) = sqX X r := by
    rw [val_main_v29_apply, val_main_v26_apply]
    have e' : idx_main_v26 (idx_main_v29 (ix2 r k)) = ix1 r := by
      funext a; match a with | ⟨0, _⟩ => rfl
    rw [e', v3_eq]
  rw [val_main_v43_apply, val_main_v42_apply, val_main_v40_apply, val_main_v38_apply, val_main_v30_apply,
    val_main_v28_apply, val_main_v27_apply, val_main_cst_5_apply, val_main_v39_apply, val_main_cst_8_apply,
    val_main_v41_apply, val_main_cst_9_apply, e29, v25_eq X A Ng r k h, v37_eq A Ng r k h]
  rfl

/-- The mean of row r's eight negative distances. -/
theorem v46_eq (hN : NegsOk Ng) (r : Fin 262144) :
    val_main_v46 (F := Ideal) X A Ng (ix1 r) = negSum X A Ng r * eighth := by
  rw [val_main_v46_apply, val_main_v45_apply, val_main_cst_11_apply, val_main_v44_apply, val_main_cst_10_apply,
    Ideal.ofBits_def, Ideal.ofBits_def, Ideal.ofBits_zero_f32, zero_add, Ideal.hostDivf_def]
  have e : ∑ k : Fin 8, val_main_v43 (F := Ideal) X A Ng (idx_main_v44 (ix1 r) k) = negSum X A Ng r := by
    unfold negSum
    refine Finset.sum_congr rfl fun k _ => ?_
    have e' : idx_main_v44 (ix1 r) k = ix2 r k := by
      funext a; match a with | ⟨0, _⟩ => rfl | ⟨1, _⟩ => rfl
    rw [e', v43_eq X A Ng r k (hN (ix2 r k))]
  rw [e]
  exact div_eight _

/-- THE NEGATIVE LOSS. -/
theorem neg_eq (hN : NegsOk Ng) : val_main_v56 (F := Ideal) X Lb A Ng = negLoss X Lb A Ng := by
  funext i
  obtain ⟨r, rfl⟩ : ∃ r : Fin 262144, i = ix1 r := ⟨i 0, eq_ix1 i⟩
  rw [val_main_v56_apply, val_main_v55_apply, val_main_v54_apply, val_main_cst_16_apply, val_main_v50_apply,
    val_main_v48_apply, val_main_v47_apply, val_main_c_12_apply, val_main_call3_v1_apply, val_main_call3_v0_apply,
    val_main_cst_14_apply, val_main_call5_v0_apply, val_main_call5_cst_apply, where_ne, v46_eq X A Ng hN r]
  rfl

/-! ## The scalar loss -/

/-- THE TOTAL: the last operations of the program are the specification's, on the two per-row losses. -/
theorem total_eq : val_main_v62 (F := Ideal) X Lb A Ng
    = total reducesTo_S262144_S_d0 h_S_ (val_main_v53 (F := Ideal) X Lb A) (val_main_v56 (F := Ideal) X Lb A Ng) := rfl

end Cert.RefSide

end
-- ==== Proof.PreDecode.lean ====
/-
  The claim's precondition, read back over its two integer arguments.

  The printed precondition is a conjunction of four "every element satisfies …" tests, each an and-reduction of a
  one-bit array down to a scalar, joined by one-bit ands. The scalar being 1 therefore makes each of the four
  reductions 1, and a reduction by and over all axes that is 1 met a 1 at every element. At an element the third
  test reads ((l ≥ 0) and (l < 200)) or (l = 255) of the label word l, the fourth (n ≥ 0) and (n < 200) of the
  negative-index word n; the comparisons are signed, against the scalar constants 0, 200, 255 broadcast to the
  array's shape. A 32-bit word whose signed value lies in [0, 200) has unsigned value below 200. The two float
  tests (every |x| and |a| below +∞) are not used here.
-/
import proofs.«418721_j84713934946579_2_alg».proof.Pre_finite_inputs
import proofs.«418721_j84713934946579_2_alg».proof.Proof.Spec
import Idealize.ShloMosaic.Lib.ReduceAll
import Idealize.ShloMosaic.Lib.StableHlo.Predicate

noncomputable section

namespace Cert.PreDecode

open Cert.Contrast Idealize.ShloMosaic

/-- A scalar (rank 0) array has exactly one index. -/
instance : Subsingleton Cert.Pre_finite_inputs.S_.Idx := ⟨fun a b => funext fun d => d.elim0⟩

/-- A word that tests signed ≥ 0 and signed < 200 has unsigned value below 200. -/
theorem toNat_lt_200 (a : BitVec 32) (hge : IntOp.cmpi .sge a 0#32 = 1#1) (hlt : IntOp.cmpi .slt a 200#32 = 1#1) :
    a.toNat < 200 := by
  rw [IntOp.cmpi_sge, show (0#32 : BitVec 32).toInt = 0 from by decide] at hge
  rw [IntOp.cmpi_slt, show (200#32 : BitVec 32).toInt = 200 from by decide] at hlt
  have hlt32 := a.isLt
  rw [BitVec.toInt_eq_toNat_cond] at hge hlt
  split at hge <;> omega

/-- The label test at one word: in [0, 200) signed, or equal to 255. -/
theorem label_word (a : BitVec 32)
    (h : IntOp.ori (IntOp.andi (IntOp.cmpi .sge a 0#32) (IntOp.cmpi .slt a 200#32)) (IntOp.cmpi .eq a 255#32) = 1#1) :
    a = 255#32 ∨ a.toNat < 200 := by
  rcases IntOp.ori_eq_one.1 h with h1 | h2
  · obtain ⟨hge, hlt⟩ := IntOp.andi_eq_one.1 h1
    exact Or.inr (toNat_lt_200 a hge hlt)
  · exact Or.inl (IntOp.cmpi_eq.1 h2)

/-- The negative-index test at one word: in [0, 200) signed. -/
theorem neg_word (a : BitVec 32)
    (h : IntOp.andi (IntOp.cmpi .sge a 0#32) (IntOp.cmpi .slt a 200#32) = 1#1) : a.toNat < 200 := by
  obtain ⟨hge, hlt⟩ := IntOp.andi_eq_one.1 h
  exact toNat_lt_200 a hge hlt

/-- THE PRECONDITION READ BACK: labels are 255 or below 200, negative indices below 200. -/
theorem ranges_of_pre [Cert.Pre_finite_inputs.Facts] {F : FTy → Type} [FloatOps F]
    (X : FVec F Cert.Pre_finite_inputs.S262144x512 .f32) (Lb : IVec Cert.Pre_finite_inputs.S262144 32)
    (A : FVec F Cert.Pre_finite_inputs.S200x512 .f32) (Ng : IVec Cert.Pre_finite_inputs.S262144x8 32)
    (h : Cert.Pre_finite_inputs.fn (F := F) X Lb A Ng = fun _ => 1#1) :
    LabelsOk Lb ∧ NegsOk Ng := by
  have h0 := congrFun h (fun d => d.elim0)
  dsimp only [Cert.Pre_finite_inputs.fn, Cert.Pre_finite_inputs.fn_part1] at h0
  -- the scalar is (finite-tests and labels-test) and negatives-test
  obtain ⟨h18, h24⟩ := IntOp.andi_eq_one.1 h0
  obtain ⟨-, h17⟩ := IntOp.andi_eq_one.1 h18
  refine ⟨fun i => ?_, fun i => ?_⟩
  · have e := Host.reduce_andi_all _ _ _ _ _ h17 i
    exact label_word (Lb i) e
  · have e := Host.reduce_andi_all _ _ _ _ _ h24 i
    exact neg_word (Ng i) e

end Cert.PreDecode

end
-- ==== Proof.lean ====
/-
  A contrastive distance loss computed two ways: by a tiled kernel that multiplies each block of 512 feature rows
  with the anchor table padded to 256 rows and picks the needed products out of the 512 × 256 table by one-hot sums,
  and by the reference, which gathers them. On the domain of the claim — every float finite, every label the ignore
  value 255 or below 200, every negative index below 200 — a one-hot sum over 256 lanes picks exactly the entry the
  reference gathers, the padded rows are never picked except under the ignore mask, the eight negative distances are
  added in two orders of one commutative sum, and the kernel's product with 1/8 is the reference's quotient by 8.
  Both programs' results are therefore one function of the four arguments (Proof/Spec.lean): the kernel's by reading
  the generated frame run block by block (Proof/KBody.lean, Proof/KBlocks.lean, Proof/KArrays.lean, Proof/KValue.lean,
  Proof/KRun.lean), the reference's by running its host line stretch by stretch (Proof/RefRunHand.lean) and reading
  the stages index by index (Proof/RefSide.lean). The domain is read out of the printed precondition in
  Proof/PreDecode.lean; its finiteness part is not used. The idealization rewrote nothing, so it is preserved trivially.
-/
import proofs.«418721_j84713934946579_2_alg».proof.Defs
import proofs.«418721_j84713934946579_2_alg».proof.Proof.Gen.Kernel
import proofs.«418721_j84713934946579_2_alg».proof.Proof.Gen.Kernel.Skeleton
import proofs.«418721_j84713934946579_2_alg».proof.Proof.Gen.Kernel.Launch
import proofs.«418721_j84713934946579_2_alg».proof.Proof.Gen.Kernel.Points
import proofs.«418721_j84713934946579_2_alg».proof.Proof.Gen.Kernel.Frame
import proofs.«418721_j84713934946579_2_alg».proof.Proof.Gen.KernelIdeal
import proofs.«418721_j84713934946579_2_alg».proof.Proof.Gen.KernelIdeal.Skeleton
import proofs.«418721_j84713934946579_2_alg».proof.Proof.Gen.KernelIdeal.Launch
import proofs.«418721_j84713934946579_2_alg».proof.Proof.Gen.KernelIdeal.Points
import proofs.«418721_j84713934946579_2_alg».proof.Proof.Gen.KernelIdeal.Frame
import proofs.«418721_j84713934946579_2_alg».proof.Proof.Gen.ReferenceIdeal
import proofs.«418721_j84713934946579_2_alg».proof.Proof.Gen.Pre_finite_inputs
import proofs.«418721_j84713934946579_2_alg».proof.Proof.KRun
import proofs.«418721_j84713934946579_2_alg».proof.Proof.RefRunHand
import proofs.«418721_j84713934946579_2_alg».proof.Proof.RefSide
import proofs.«418721_j84713934946579_2_alg».proof.Proof.PreDecode
import Idealize.ShloMosaic.Adequacy
import Idealize.ShloMosaic.Init

noncomputable section

namespace Cert.Proof

open Idealize.ShloMosaic Idealize.SL.Sem Cert.Contrast

namespace Claims

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run stretch by stretch, the results dropped. -/
theorem frame_ri : Cert.frame_ReferenceIdeal := fun m ρ _ =>
  (θ_run Cert.ReferenceIdeal.defs _ _).mono (fun _ h c => (h c).2.2.2)
    (Cert.ReferenceIdeal.HandRun.run (F := Ideal) m ρ)

/-- The idealization rewrote no operation. -/
theorem preserves : Cert.preserves_Kernel_KernelIdeal := trivial

/-- From memories agreeing on the arguments, inside the precondition's domain, both idealized programs end at the
    specification's three values of the kernel's arguments. -/
theorem algebraic : Cert.algebraic_KernelIdeal_ReferenceIdeal := by
  intro m ρ m' ρ' hpre hagree
  have hdom : ∀ c : Dev Cert.KernelIdeal.nD,
      LabelsOk (Cert.KernelIdeal.KValue.argL m c) ∧ NegsOk (Cert.KernelIdeal.KValue.argN m c) := fun c =>
    Cert.PreDecode.ranges_of_pre (F := Ideal) _ _ _ _ (hpre c)
  refine ⟨_, _, _, Cert.KernelIdeal.KValue.run m ρ (fun c => (hdom c).1) (fun c => (hdom c).2), ?_⟩
  refine (θ_run Cert.ReferenceIdeal.defs _ _).mono (fun _ h c => ⟨(h c).1.trans ?_, (h c).2.1.trans ?_, (h c).2.2.1.trans ?_, (h c).2.2.2⟩)
    (Cert.ReferenceIdeal.HandRun.run (F := Ideal) m' ρ')
  · rw [(hagree c).1, (hagree c).2.1, (hagree c).2.2.1, (hagree c).2.2.2, Cert.RefSide.total_eq,
      Cert.RefSide.pos_eq _ _ _ (hdom c).1, Cert.RefSide.neg_eq _ _ _ _ (hdom c).2]
  · rw [(hagree c).1, (hagree c).2.1, (hagree c).2.2.1]
    exact Cert.RefSide.pos_eq _ _ _ (hdom c).1
  · rw [(hagree c).1, (hagree c).2.1, (hagree c).2.2.1, (hagree c).2.2.2]
    exact Cert.RefSide.neg_eq _ _ _ _ (hdom c).2

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
